-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S40000x32 : S_.BroadcastsInDim S40000x32 (![] : Fin 0 → Fin S40000x32.rank)
  reducesTo_S40000x32_S_d0_1 : S40000x32.ReducesTo [0, 1] S_
  bcast_S_S400000x32 : S_.BroadcastsInDim S400000x32 (![] : Fin 0 → Fin S400000x32.rank)
  reducesTo_S400000x32_S_d0_1 : S400000x32.ReducesTo [0, 1] S_
  bcast_S_S160x320 : S_.BroadcastsInDim S160x320 (![] : Fin 0 → Fin S160x320.rank)
  reducesTo_S160x320_S_d0_1 : S160x320.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S1x160 : S_.BroadcastsInDim S1x160 (![] : Fin 0 → Fin S1x160.rank)
  reducesTo_S1x160_S_d0_1 : S1x160.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x160 .f32) (main_arg13 : FVec F S1 .f32) (main_v48 : IVec S_ 1) (main_v49 : FVec F S160 .f32) (main_v50 : FVec F S160 .f32) : IVec S_ 1 :=
  let main_v51 : IVec S160 1 := cmpf .olt main_v49 main_v50
  let main_c_19 : IVec S_ 1 := constantI S_ 1 1#1
  let main_v52 : IVec S_ 1 := (fun x v => Host.reduce IntOp.andi x v reducesTo_S160_S_d0 h_S_) main_v51 main_c_19
  let main_v53 : IVec S_ 1 := andi main_v48 main_v52
  let main_v54 : FVec F S1x160 .f32 := Host.absf main_arg12
  let main_cst_20 : FVec F S_ .f32 := constant S_ .f32 0x7F800000#32
  let main_v55 : FVec F S1x160 .f32 := broadcastInDim S1x160 ![] bcast_S_S1x160 main_cst_20
  let main_v56 : IVec S1x160 1 := cmpf .olt main_v54 main_v55
  let main_c_21 : IVec S_ 1 := constantI S_ 1 1#1
  let main_v57 : IVec S_ 1 := (fun x v => Host.reduce IntOp.andi x v reducesTo_S1x160_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S160 .f32) (main_arg9 : FVec F S160 .f32) (main_arg10 : FVec F S160 .f32) (main_arg11 : FVec F S160 .f32) (main_arg12 : FVec F S1x160 .f32) (main_arg13 : FVec F S1 .f32) (main_v33 : IVec S_ 1) : IVec S_ 1 :=
  let main_v34 : FVec F S160 .f32 := Host.absf main_arg8
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  let main_v39 : FVec F S160 .f32 := Host.absf main_arg9
  let main_cst_14 : FVec F S_ .f32 := constant S_ .f32 0x7F800000#32
  let main_v40 : FVec F S160 .f32 := broadcastInDim S160 ![] bcast_S_S160 main_cst_14
  let main_v41 : IVec S160 1 := cmpf .olt main_v39 main_v40
  let main_c_15 : IVec S_ 1 := constantI S_ 1 1#1
  let main_v42 : IVec S_ 1 := (fun x v => Host.reduce IntOp.andi x v reducesTo_S160_S_d0 h_S_) main_v41 main_c_15
  let main_v43 : IVec S_ 1 := andi main_v38 main_v42
  let main_v44 : FVec F S160 .f32 := Host.absf main_arg10
  let main_cst_16 : FVec F S_ .f32 := constant S_ .f32 0x7F800000#32
  let main_v45 : FVec F S160 .f32 := broadcastInDim S160 ![] bcast_S_S160 main_cst_16
  let main_v46 : IVec S160 1 := cmpf .olt main_v44 main_v45
  let main_c_17 : IVec S_ 1 := constantI S_ 1 1#1
  let main_v47 : IVec S_ 1 := (fun x v => Host.reduce IntOp.andi x v reducesTo_S160_S_d0 h_S_) main_v46 main_c_17
  let main_v48 : IVec S_ 1 := andi main_v43 main_v47
  let main_v49 : FVec F S160 .f32 := Host.absf main_arg11
  let main_cst_18 : FVec F S_ .f32 := constant S_ .f32 0x7F800000#32
  let main_v50 : FVec F S160 .f32 := broadcastInDim S160 ![] bcast_S_S160 main_cst_18
  fn_part3 (F := F) main_arg12 main_arg13 main_v48 main_v49 main_v50

def fn_part1 {F : FTy → Type} [FloatOps F] (main_arg5 : FVec F S160x320 .f32) (main_arg6 : FVec F S160x160 .f32) (main_arg7 : FVec F S160x320 .f32) (main_arg8 : FVec F S160 .f32) (main_arg9 : FVec F S160 .f32) (main_arg10 : FVec F S160 .f32) (main_arg11 : FVec F S160 .f32) (main_arg12 : FVec F S1x160 .f32) (main_arg13 : FVec F S1 .f32) (main_v13 : IVec S_ 1) (main_v16 : IVec S400000x32 1) : IVec S_ 1 :=
  let main_c_5 : IVec S_ 1 := constantI S_ 1 1#1
  let main_v17 : IVec S_ 1 := (fun x v => Host.reduce IntOp.andi x v reducesTo_S400000x32_S_d0_1 h_S_) main_v16 main_c_5
  let main_v18 : IVec S_ 1 := andi main_v13 main_v17
  let main_v19 : FVec F S160x320 .f32 := Host.absf main_arg5
  let main_cst_6 : FVec F S_ .f32 := constant S_ .f32 0x7F800000#32
  let main_v20 : FVec F S160x320 .f32 := broadcastInDim S160x320 ![] bcast_S_S160x320 main_cst_6
  let main_v21 : IVec S160x320 1 := cmpf .olt main_v19 main_v20
  let main_c_7 : IVec S_ 1 := constantI S_ 1 1#1
  let main_v22 : IVec S_ 1 := (fun x v => Host.reduce IntOp.andi x v reducesTo_S160x320_S_d0_1 h_S_) main_v21 main_c_7
  let main_v23 : IVec S_ 1 := andi main_v18 main_v22
  let main_v24 : FVec F S160x160 .f32 := Host.absf main_arg6
  let main_cst_8 : FVec F S_ .f32 := constant S_ .f32 0x7F800000#32
  let main_v25 : FVec F S160x160 .f32 := broadcastInDim S160x160 ![] bcast_S_S160x160 main_cst_8
  let main_v26 : IVec S160x160 1 := cmpf .olt main_v24 main_v25
  let main_c_9 : IVec S_ 1 := constantI S_ 1 1#1
  let main_v27 : IVec S_ 1 := (fun x v => Host.reduce IntOp.andi x v reducesTo_S160x160_S_d0_1 h_S_) main_v26 main_c_9
  let main_v28 : IVec S_ 1 := andi main_v23 main_v27
  let main_v29 : FVec F S160x320 .f32 := Host.absf main_arg7
  let main_cst_10 : FVec F S_ .f32 := constant S_ .f32 0x7F800000#32
  let main_v30 : FVec F S160x320 .f32 := broadcastInDim S160x320 ![] bcast_S_S160x320 main_cst_10
  let main_v31 : IVec S160x320 1 := cmpf .olt main_v29 main_v30
  let main_c_11 : IVec S_ 1 := constantI S_ 1 1#1
  let main_v32 : IVec S_ 1 := (fun x v => Host.reduce IntOp.andi x v reducesTo_S160x320_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S40000x128 .f32) (main_arg1 : FVec F S400000x128 .f32) (main_arg2 : FVec F S40000x32 .f32) (main_arg3 : FVec F S400000x32 .f32) (main_arg4 : IVec S400000 32) (main_arg5 : FVec F S160x320 .f32) (main_arg6 : FVec F S160x160 .f32) (main_arg7 : FVec F S160x320 .f32) (main_arg8 : FVec F S160 .f32) (main_arg9 : FVec F S160 .f32) (main_arg10 : FVec F S160 .f32) (main_arg11 : FVec F S160 .f32) (main_arg12 : FVec F S1x160 .f32) (main_arg13 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S40000x32 .f32 := Host.absf main_arg2
  let main_cst_2 : FVec F S_ .f32 := constant S_ .f32 0x7F800000#32
  let main_v10 : FVec F S40000x32 .f32 := broadcastInDim S40000x32 ![] bcast_S_S40000x32 main_cst_2
  let main_v11 : IVec S40000x32 1 := cmpf .olt main_v9 main_v10
  let main_c_3 : IVec S_ 1 := constantI S_ 1 1#1
  let main_v12 : IVec S_ 1 := (fun x v => Host.reduce IntOp.andi x v reducesTo_S40000x32_S_d0_1 h_S_) main_v11 main_c_3
  let main_v13 : IVec S_ 1 := andi main_v8 main_v12
  let main_v14 : FVec F S400000x32 .f32 := Host.absf main_arg3
  let main_cst_4 : FVec F S_ .f32 := constant S_ .f32 0x7F800000#32
  let main_v15 : FVec F S400000x32 .f32 := broadcastInDim S400000x32 ![] bcast_S_S400000x32 main_cst_4
  let main_v16 : IVec S400000x32 1 := cmpf .olt main_v14 main_v15
  fn_part1 (F := F) main_arg5 main_arg6 main_arg7 main_arg8 main_arg9 main_arg10 main_arg11 main_arg12 main_arg13 main_v13 main_v16
-- ==== Kernel.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩
abbrev S400000x1 : Shape := ⟨2, ![400000, 1]⟩
abbrev S400000x320 : Shape := ⟨2, ![400000, 320]⟩
abbrev S320x160 : Shape := ⟨2, ![320, 160]⟩
abbrev S160x1 : Shape := ⟨2, ![160, 1]⟩
abbrev S1x1 : Shape := ⟨2, ![1, 1]⟩
abbrev S2000x320 : Shape := ⟨2, ![2000, 320]⟩
abbrev S2000x1 : Shape := ⟨2, ![2000, 1]⟩
abbrev S2000x160 : Shape := ⟨2, ![2000, 160]⟩
abbrev S2000 : Shape := ⟨1, ![2000]⟩

abbrev nBuf : Space → Nat
  | .hbm => 43
  | .vmem => 13
  | .smem => 0
  | _ => 0

abbrev bufTy : (tb : Table) → Fin (tcTables nBuf tb) → BufTy
  | .hbm, ⟨0, _⟩ => ⟨S40000x128, .f32⟩
  | .hbm, ⟨1, _⟩ => ⟨S400000x128, .f32⟩
  | .hbm, ⟨2, _⟩ => ⟨S40000x32, .f32⟩
  | .hbm, ⟨3, _⟩ => ⟨S400000x32, .f32⟩
  | .hbm, ⟨4, _⟩ => ⟨S400000, .i32⟩
  | .hbm, ⟨5, _⟩ => ⟨S160x320, .f32⟩
  | .hbm, ⟨6, _⟩ => ⟨S160x160, .f32⟩
  | .hbm, ⟨7, _⟩ => ⟨S160x320, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S160, .f32⟩
  | .hbm, ⟨12, _⟩ => ⟨S1x160, .f32⟩
  | .hbm, ⟨13, _⟩ => ⟨S1, .f32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x32, .f32⟩
  | .hbm, ⟨32, _⟩ => ⟨S400000x320, .f32⟩
  | .hbm, ⟨33, _⟩ => ⟨S320x160, .f32⟩
  | .hbm, ⟨34, _⟩ => ⟨S160x160, .f32⟩
  | .hbm, ⟨35, _⟩ => ⟨S320x160, .f32⟩
  | .hbm, ⟨36, _⟩ => ⟨S160x1, .f32⟩
  | .hbm, ⟨37, _⟩ => ⟨S1x160, .f32⟩
  | .hbm, ⟨38, _⟩ => ⟨S1x160, .f32⟩
  | .hbm, ⟨39, _⟩ => ⟨S1x160, .f32⟩
  | .hbm, ⟨40, _⟩ => ⟨S1x160, .f32⟩
  | .hbm, ⟨41, _⟩ => ⟨S1x1, .f32⟩
  | .hbm, ⟨42, _⟩ => ⟨S400000x1, .f32⟩
  | .local _ .vmem, ⟨0, _⟩ => ⟨S2000x320, .f32⟩
  | .local _ .vmem, ⟨1, _⟩ => ⟨S2000x320, .f32⟩
  | .local _ .vmem, ⟨2, _⟩ => ⟨S320x160, .f32⟩
  | .local _ .vmem, ⟨3, _⟩ => ⟨S160x160, .f32⟩
  | .local _ .vmem, ⟨4, _⟩ => ⟨S320x160, .f32⟩
  | .local _ .vmem, ⟨5, _⟩ => ⟨S1x160, .f32⟩
  | .local _ .vmem, ⟨6, _⟩ => ⟨S1x160, .f32⟩
  | .local _ .vmem, ⟨7, _⟩ => ⟨S1x160, .f32⟩
  | .local _ .vmem, ⟨8, _⟩ => ⟨S1x160, .f32⟩
  | .local _ .vmem, ⟨9, _⟩ => ⟨S160x1, .f32⟩
  | .local _ .vmem, ⟨10, _⟩ => ⟨S1x1, .f32⟩
  | .local _ .vmem, ⟨11, _⟩ => ⟨S2000x1, .f32⟩
  | .local _ .vmem, ⟨12, _⟩ => ⟨S2000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S160x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x32_S400000x128_S400000x32_S400000x320_d1 : Shape.Concatenates [S400000x128, S400000x32, S400000x128, S400000x32] S400000x320 1
  transposes_S160x320_S320x160_1_0 : S160x320.Transposes [1, 0] S320x160
  transposes_S160x160_S160x160_1_0 : S160x160.Transposes [1, 0] S160x160
  transposes_S1x160_S160x1_1_0 : S1x160.Transposes [1, 0] S160x1
  shapeCasts_S160_S1x160 : S160.ShapeCasts S1x160
  shapeCasts_S1_S1x1 : S1.ShapeCasts S1x1
  inb_S2000x320_S2000x320_0_0 : ∀ a, (![0, 0] : Fin 2 → Nat) a + S2000x320.size a ≤ S2000x320.size a
  h_S2000x320 : 0 < S2000x320.numel
  shapeCasts_S2000x320_S2000x320 : S2000x320.ShapeCasts S2000x320
  bitsLt_bf16_f32 : FTy.bits .bf16 < FTy.bits .f32
  inb_S320x160_S320x160_0_0 : ∀ a, (![0, 0] : Fin 2 → Nat) a + S320x160.size a ≤ S320x160.size a
  h_S320x160 : 0 < S320x160.numel
  shapeCasts_S320x160_S320x160 : S320x160.ShapeCasts S320x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  reduces_S2000x160_S2000 : S2000x160.Reduces [1] S2000
  shapeCasts_S2000_S2000x1 : S2000.ShapeCasts S2000x1
  broadcasts_S2000x1_S2000x160 : S2000x1.Broadcasts S2000x160
  broadcasts_S1x160_S2000x160 : S1x160.Broadcasts S2000x160
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S160x1_S160x1_0_0 : ∀ a, (![0, 0] : Fin 2 → Nat) a + S160x1.size a ≤ S160x1.size a
  h_S160x1 : 0 < S160x1.numel
  shapeCasts_S160x1_S160x1 : S160x1.ShapeCasts S160x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S40000x128_S400000x1_S400000x128_1_0_n_n_0_1_1128_wf : GatherDims.WF S40000x128 S400000x1 S400000x128 [1] [0] [] [0] [] 1 ![1, 128]
  gather_S40000x32_S400000x1_S400000x32_1_0_n_n_0_1_132_wf : GatherDims.WF S40000x32 S400000x1 S400000x32 [1] [0] [] [0] [] 1 ![1, 32]
  dot_S2000x320_S320x160_S2000x160_1_0_0_1_n_n_wf : DotDims.WF S2000x320 S320x160 S2000x160 [1] [0] [0] [1] [] []
  dot_S2000x160_S160x160_S2000x160_1_0_0_1_n_n_wf : DotDims.WF S2000x160 S160x160 S2000x160 [1] [0] [0] [1] [] []
  dot_S2000x160_S160x1_S2000x1_1_0_0_1_n_n_wf : DotDims.WF S2000x160 S160x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x320.size a ≤ S400000x320.size a
  hwx0_0 : ∀ i : grid0.Coords, EltTy.bits .f32 = 32 ∨ (Rect.block (s := S400000x320) S2000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x160.size a ≤ S320x160.size a
  hwx0_1 : ∀ i : grid0.Coords, EltTy.bits .f32 = 32 ∨ (Rect.block (s := S320x160) S320x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x160.size a ≤ S160x160.size a
  hwx0_2 : ∀ i : grid0.Coords, EltTy.bits .f32 = 32 ∨ (Rect.block (s := S160x160) S160x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x160.size a ≤ S320x160.size a
  hwx0_3 : ∀ i : grid0.Coords, EltTy.bits .f32 = 32 ∨ (Rect.block (s := S320x160) S320x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x160.size a ≤ S1x160.size a
  hwx0_5 : ∀ i : grid0.Coords, EltTy.bits .f32 = 32 ∨ (Rect.block (s := S1x160) S1x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x160.size a ≤ S1x160.size a
  hwx0_6 : ∀ i : grid0.Coords, EltTy.bits .f32 = 32 ∨ (Rect.block (s := S1x160) S1x160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x160.size a ≤ S1x160.size a
  hwx0_7 : ∀ i : grid0.Coords, EltTy.bits .f32 = 32 ∨ (Rect.block (s := S1x160) S1x160.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S160x1.size a ≤ S160x1.size a
  hwx0_8 : ∀ i : grid0.Coords, EltTy.bits .f32 = 32 ∨ (Rect.block (s := S160x1) S160x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S400000x1.size a
  hwx0_10 : ∀ i : grid0.Coords, EltTy.bits .f32 = 32 ∨ (Rect.block (s := S400000x1) S2000x1.size (cc0_transform_10 i) (hinb0_10 i)).WholeWords (EltTy.packing .f32)

variable [Facts₀]

def gather_S40000x128_S400000x1_S400000x128_1_0_n_n_0_1_1128 : GatherDims S40000x128 S400000x1 S400000x128 where
  offsetDims := [1]
  collapsedSliceDims := [0]
  operandBatchingDims := []
  startIndicesBatchingDims := []
  startIndexMap := [0]
  indexVectorDim := 1
  sliceSizes := ![1, 128]
  wf := gather_S40000x128_S400000x1_S400000x128_1_0_n_n_0_1_1128_wf
def gather_S40000x32_S400000x1_S400000x32_1_0_n_n_0_1_132 : GatherDims S40000x32 S400000x1 S400000x32 where
  offsetDims := [1]
  collapsedSliceDims := [0]
  operandBatchingDims := []
  startIndicesBatchingDims := []
  startIndexMap := [0]
  indexVectorDim := 1
  sliceSizes := ![1, 32]
  wf := gather_S40000x32_S400000x1_S400000x32_1_0_n_n_0_1_132_wf
def dot_S2000x320_S320x160_S2000x160_1_0_0_1_n_n : DotDims S2000x320 S320x160 S2000x160 where
  lhsContracting := [1]
  rhsContracting := [0]
  lhsNonContracting := [0]
  rhsNonContracting := [1]
  lhsBatch := []
  rhsBatch := []
  wf := dot_S2000x320_S320x160_S2000x160_1_0_0_1_n_n_wf
def dot_S2000x160_S160x160_S2000x160_1_0_0_1_n_n : DotDims S2000x160 S160x160 S2000x160 where
  lhsContracting := [1]
  rhsContracting := [0]
  lhsNonContracting := [0]
  rhsNonContracting := [1]
  lhsBatch := []
  rhsBatch := []
  wf := dot_S2000x160_S160x160_S2000x160_1_0_0_1_n_n_wf
def dot_S2000x160_S160x1_S2000x1_1_0_0_1_n_n : DotDims S2000x160 S160x1 S2000x1 where
  lhsContracting := [1]
  rhsContracting := [0]
  lhsNonContracting := [0]
  rhsNonContracting := [1]
  lhsBatch := []
  rhsBatch := []
  wf := dot_S2000x160_S160x1_S2000x1_1_0_0_1_n_n_wf

abbrev win0_0 : Pipeline.Window sig grid0 :=
  Pipeline.Window.ofSpec (Memref.whole main_v14) S2000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S320x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S160x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S320x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x160.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S160x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩
abbrev S400000x1 : Shape := ⟨2, ![400000, 1]⟩
abbrev S400000x320 : Shape := ⟨2, ![400000, 320]⟩
abbrev S400000x160 : Shape := ⟨2, ![400000, 160]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S400000x128, .f32⟩
  | .hbm, ⟨2, _⟩ => ⟨S40000x32, .f32⟩
  | .hbm, ⟨3, _⟩ => ⟨S400000x32, .f32⟩
  | .hbm, ⟨4, _⟩ => ⟨S400000, .i32⟩
  | .hbm, ⟨5, _⟩ => ⟨S160x320, .f32⟩
  | .hbm, ⟨6, _⟩ => ⟨S160x160, .f32⟩
  | .hbm, ⟨7, _⟩ => ⟨S160x320, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S160, .f32⟩
  | .hbm, ⟨12, _⟩ => ⟨S1x160, .f32⟩
  | .hbm, ⟨13, _⟩ => ⟨S1, .f32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x32, .f32⟩
  | .hbm, ⟨32, _⟩ => ⟨S400000x320, .f32⟩
  | .hbm, ⟨33, _⟩ => ⟨S400000x160, .f32⟩
  | .hbm, ⟨34, _⟩ => ⟨S_, .f32⟩
  | .hbm, ⟨35, _⟩ => ⟨S400000, .f32⟩
  | .hbm, ⟨36, _⟩ => ⟨S400000x1, .f32⟩
  | .hbm, ⟨37, _⟩ => ⟨S_, .f32⟩
  | .hbm, ⟨38, _⟩ => ⟨S400000x1, .f32⟩
  | .hbm, ⟨39, _⟩ => ⟨S400000x1, .f32⟩
  | .hbm, ⟨40, _⟩ => ⟨S400000x160, .f32⟩
  | .hbm, ⟨41, _⟩ => ⟨S400000x160, .f32⟩
  | .hbm, ⟨42, _⟩ => ⟨S400000x160, .f32⟩
  | .hbm, ⟨43, _⟩ => ⟨S_, .f32⟩
  | .hbm, ⟨44, _⟩ => ⟨S400000, .f32⟩
  | .hbm, ⟨45, _⟩ => ⟨S400000x1, .f32⟩
  | .hbm, ⟨46, _⟩ => ⟨S_, .f32⟩
  | .hbm, ⟨47, _⟩ => ⟨S400000x1, .f32⟩
  | .hbm, ⟨48, _⟩ => ⟨S400000x1, .f32⟩
  | .hbm, ⟨49, _⟩ => ⟨S400000x160, .f32⟩
  | .hbm, ⟨50, _⟩ => ⟨S400000x160, .f32⟩
  | .hbm, ⟨51, _⟩ => ⟨S_, .f32⟩
  | .hbm, ⟨52, _⟩ => ⟨S400000x1, .f32⟩
  | .hbm, ⟨53, _⟩ => ⟨S400000x1, .f32⟩
  | .hbm, ⟨54, _⟩ => ⟨S400000x1, .f32⟩
  | .hbm, ⟨55, _⟩ => ⟨S400000x160, .f32⟩
  | .hbm, ⟨56, _⟩ => ⟨S400000x160, .f32⟩
  | .hbm, ⟨57, _⟩ => ⟨S1x160, .f32⟩
  | .hbm, ⟨58, _⟩ => ⟨S400000x160, .f32⟩
  | .hbm, ⟨59, _⟩ => ⟨S400000x160, .f32⟩
  | .hbm, ⟨60, _⟩ => ⟨S1x160, .f32⟩
  | .hbm, ⟨61, _⟩ => ⟨S400000x160, .f32⟩
  | .hbm, ⟨62, _⟩ => ⟨S400000x160, .f32⟩
  | .hbm, ⟨63, _⟩ => ⟨S_, .f32⟩
  | .hbm, ⟨64, _⟩ => ⟨S400000x160, .f32⟩
  | .hbm, ⟨65, _⟩ => ⟨S400000x160, .f32⟩
  | .hbm, ⟨66, _⟩ => ⟨S400000x160, .f32⟩
  | .hbm, ⟨67, _⟩ => ⟨S_, .f32⟩
  | .hbm, ⟨68, _⟩ => ⟨S400000, .f32⟩
  | .hbm, ⟨69, _⟩ => ⟨S400000x1, .f32⟩
  | .hbm, ⟨70, _⟩ => ⟨S_, .f32⟩
  | .hbm, ⟨71, _⟩ => ⟨S400000x1, .f32⟩
  | .hbm, ⟨72, _⟩ => ⟨S400000x1, .f32⟩
  | .hbm, ⟨73, _⟩ => ⟨S400000x160, .f32⟩
  | .hbm, ⟨74, _⟩ => ⟨S400000x160, .f32⟩
  | .hbm, ⟨75, _⟩ => ⟨S400000x160, .f32⟩
  | .hbm, ⟨76, _⟩ => ⟨S_, .f32⟩
  | .hbm, ⟨77, _⟩ => ⟨S400000, .f32⟩
  | .hbm, ⟨78, _⟩ => ⟨S400000x1, .f32⟩
  | .hbm, ⟨79, _⟩ => ⟨S_, .f32⟩
  | .hbm, ⟨80, _⟩ => ⟨S400000x1, .f32⟩
  | .hbm, ⟨81, _⟩ => ⟨S400000x1, .f32⟩
  | .hbm, ⟨82, _⟩ => ⟨S400000x160, .f32⟩
  | .hbm, ⟨83, _⟩ => ⟨S400000x160, .f32⟩
  | .hbm, ⟨84, _⟩ => ⟨S_, .f32⟩
  | .hbm, ⟨85, _⟩ => ⟨S400000x1, .f32⟩
  | .hbm, ⟨86, _⟩ => ⟨S400000x1, .f32⟩
  | .hbm, ⟨87, _⟩ => ⟨S400000x1, .f32⟩
  | .hbm, ⟨88, _⟩ => ⟨S400000x160, .f32⟩
  | .hbm, ⟨89, _⟩ => ⟨S400000x160, .f32⟩
  | .hbm, ⟨90, _⟩ => ⟨S1x160, .f32⟩
  | .hbm, ⟨91, _⟩ => ⟨S400000x160, .f32⟩
  | .hbm, ⟨92, _⟩ => ⟨S400000x160, .f32⟩
  | .hbm, ⟨93, _⟩ => ⟨S1x160, .f32⟩
  | .hbm, ⟨94, _⟩ => ⟨S400000x160, .f32⟩
  | .hbm, ⟨95, _⟩ => ⟨S400000x160, .f32⟩
  | .hbm, ⟨96, _⟩ => ⟨S400000x160, .f32⟩
  | .hbm, ⟨97, _⟩ => ⟨S400000x160, .f32⟩
  | .hbm, ⟨98, _⟩ => ⟨S_, .f32⟩
  | .hbm, ⟨99, _⟩ => ⟨S400000x160, .f32⟩
  | .hbm, ⟨100, _⟩ => ⟨S400000x160, .f32⟩
  | .hbm, ⟨101, _⟩ => ⟨S400000x1, .f32⟩
  | .hbm, ⟨102, _⟩ => ⟨S1x1, .f32⟩
  | .hbm, ⟨103, _⟩ => ⟨S400000x1, .f32⟩
  | .hbm, ⟨104, _⟩ => ⟨S400000x1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call1_cst : Ref sig .tc := ⟨.hbm, 98, rfl⟩
abbrev main_call1_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x32_S400000x128_S400000x32_S400000x320_d1 : Shape.Concatenates [S400000x128, S400000x32, S400000x128, S400000x32] S400000x320 1
  reducesTo_S400000x160_S400000_d1 : S400000x160.ReducesTo [1] S400000
  h_S_ : 0 < S_.numel
  bcast_S_S400000x1 : S_.BroadcastsInDim S400000x1 (![] : Fin 0 → Fin S400000x1.rank)
  bcast_S400000x1_S400000x160_0_1 : S400000x1.BroadcastsInDim S400000x160 (![0, 1] : Fin 2 → Fin S400000x160.rank)
  bcast_S160_S1x160_1 : S160.BroadcastsInDim S1x160 (![1] : Fin 1 → Fin S1x160.rank)
  bcast_S1x160_S400000x160_0_1 : S1x160.BroadcastsInDim S400000x160 (![0, 1] : Fin 2 → Fin S400000x160.rank)
  bcast_S_S400000x160 : S_.BroadcastsInDim S400000x160 (![] : Fin 0 → Fin S400000x160.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S40000x128_S400000x1_S400000x128_1_0_n_n_0_1_1128_wf : GatherDims.WF S40000x128 S400000x1 S400000x128 [1] [0] [] [0] [] 1 ![1, 128]
  gather_S40000x32_S400000x1_S400000x32_1_0_n_n_0_1_132_wf : GatherDims.WF S40000x32 S400000x1 S400000x32 [1] [0] [] [0] [] 1 ![1, 32]
  dot_S400000x320_S160x320_S400000x160_1_1_0_0_n_n_wf : DotDims.WF S400000x320 S160x320 S400000x160 [1] [1] [0] [0] [] []
  dot_S400000x160_S160x160_S400000x160_1_1_0_0_n_n_wf : DotDims.WF S400000x160 S160x160 S400000x160 [1] [1] [0] [0] [] []
  dot_S400000x160_S1x160_S400000x1_1_1_0_0_n_n_wf : DotDims.WF S400000x160 S1x160 S400000x1 [1] [1] [0] [0] [] []

variable [Facts₀]

def gather_S40000x128_S400000x1_S400000x128_1_0_n_n_0_1_1128 : GatherDims S40000x128 S400000x1 S400000x128 where
  offsetDims := [1]
  collapsedSliceDims := [0]
  operandBatchingDims := []
  startIndicesBatchingDims := []
  startIndexMap := [0]
  indexVectorDim := 1
  sliceSizes := ![1, 128]
  wf := gather_S40000x128_S400000x1_S400000x128_1_0_n_n_0_1_1128_wf
def gather_S40000x32_S400000x1_S400000x32_1_0_n_n_0_1_132 : GatherDims S40000x32 S400000x1 S400000x32 where
  offsetDims := [1]
  collapsedSliceDims := [0]
  operandBatchingDims := []
  startIndicesBatchingDims := []
  startIndexMap := [0]
  indexVectorDim := 1
  sliceSizes := ![1, 32]
  wf := gather_S40000x32_S400000x1_S400000x32_1_0_n_n_0_1_132_wf
def dot_S400000x320_S160x320_S400000x160_1_1_0_0_n_n : DotDims S400000x320 S160x320 S400000x160 where
  lhsContracting := [1]
  rhsContracting := [1]
  lhsNonContracting := [0]
  rhsNonContracting := [0]
  lhsBatch := []
  rhsBatch := []
  wf := dot_S400000x320_S160x320_S400000x160_1_1_0_0_n_n_wf
def dot_S400000x160_S160x160_S400000x160_1_1_0_0_n_n : DotDims S400000x160 S160x160 S400000x160 where
  lhsContracting := [1]
  rhsContracting := [1]
  lhsNonContracting := [0]
  rhsNonContracting := [0]
  lhsBatch := []
  rhsBatch := []
  wf := dot_S400000x160_S160x160_S400000x160_1_1_0_0_n_n_wf
def dot_S400000x160_S1x160_S400000x1_1_1_0_0_n_n : DotDims S400000x160 S1x160 S400000x1 where
  lhsContracting := [1]
  rhsContracting := [1]
  lhsNonContracting := [0]
  rhsNonContracting := [0]
  lhsBatch := []
  rhsBatch := []
  wf := dot_S400000x160_S1x160_S400000x1_1_1_0_0_n_n_wf

class Facts : Prop extends Facts₀ where

variable [Facts]
-- ==== Proof.KernelFrameDefs.lean ====
/-
  The data of the kernel's run, at any float instance `F`.

  @main is 28 host operations (the two gathers of the actors' rows, the join of the four feature arrays into
  `x : 400000 × 320`, the transposes of the weights, the reshapes of the affine vectors and the bias) followed by one
  grid of 200 points. `V c b` is what buffer `b` of core `c` holds when the grid is entered: the launch memory with
  those 28 operations applied. Point `t` is handed block `t` (2000 rows) of `x` and the whole of each weight array —
  `iblk c w t`, window `w`'s block read off `V` — and stores ONE value into its 2000 × 1 output block: the head's
  logits of those 2000 rows, `k0_pay3` of the loaded blocks (`out0_10`). The proof data `dats` records exactly this:
  after the body every input window's buffer still holds its block, the output window's holds `out0_10` of the ten
  input blocks; the body keeps nothing between points and signals no one.
-/
import proofs.«153513_j45535243272619_1_alg».proof.Proof.Gen.Kernel.Launch
import proofs.«153513_j45535243272619_1_alg».proof.Proof.Gen.Kernel.Skeleton
import proofs.«153513_j45535243272619_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the grid is entered -/

/-- Core `c`'s TensorCore buffers when the grid is entered: the launch memory after the 28 host operations. -/
abbrev V (c : Dev nD) (b : Ref sig .tc) : Buf (Elt F) ((c : Thread nD τ).loc b) :=
  StableHlo.after hostOps0 (fun b => m (c, b)) b

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a buffer whole -/

abbrev rX : Rect S2000x320 := Rect.unit (s := S2000x320) ![0, 0] S2000x320.size inb_S2000x320_S2000x320_0_0
abbrev rW : Rect S320x160 := Rect.unit (s := S320x160) ![0, 0] S320x160.size inb_S320x160_S320x160_0_0
abbrev rS : Rect S160x160 := Rect.unit (s := S160x160) ![0, 0] S160x160.size inb_S160x160_S160x160_0_0
abbrev rG : Rect S1x160 := Rect.unit (s := S1x160) ![0, 0] S1x160.size inb_S1x160_S1x160_0_0
abbrev rH : Rect S160x1 := Rect.unit (s := S160x1) ![0, 0] S160x1.size inb_S160x1_S160x1_0_0
abbrev rB : Rect S1x1 := Rect.unit (s := S1x1) ![0, 0] S1x1.size inb_S1x1_S1x1_0_0
abbrev rO : Rect S2000x1 := Rect.unit (s := S2000x1) ![0, 0] S2000x1.size inb_S2000x1_S2000x1_0_0

/-! ## What the body leaves in the output window's buffer -/

/-- The logits of the block's 2000 rows, from the ten input blocks: the rows `x0`, the transposed weights
    `x1` (first layer), `x2` (second layer), `x3` (the residual's transform), the affine rows `x4 x5` (first
    normalisation) and `x6 x7` (second), the head's column `x8` and its bias `x9`. -/
def logits (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) : FVec F S2000x1 .f32 :=
  k0_pay3 (k0_pay1 (View.ld x0 rX))
    (k0_pay2 (View.ld x0 rX) (View.ld x1 rW) (View.ld x4 rG) (View.ld x5 rG) (View.ld x2 rS))
    (View.ld x6 rG) (View.ld x7 rG) (View.ld x3 rW) (View.ld x8 rH) (View.ld x9 rB)

/-- The output window's staging buffer after the body: its one store, which takes the buffer whole. -/
def out0_10 (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) : Vec F S2000x1 .f32 :=
  View.canon [⟨rO, logits x0 x1 x2 x3 x4 x5 x6 x7 x8 x9⟩]

/-! ## The proof data -/

/-- The one pipeline's proof data on core `c`: the arrays as the grid finds them; after the body at point `t` each
    input window's buffer at its block and the output window's at `out0_10` of the input blocks; the body uses no
    scratch, owes nothing and holds every buffer in full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t)
        (iblk m c 6 t) (iblk m c 7 t) (iblk m c 8 t) (iblk m c 9 t)
  Φ _ := Pipeline.ΦA spec0 c
  q _ := fullShare
  owed _ := 0

/-- The proof data's arrays are the grid-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t =
    out0_10 (iblk m c 0 t) (iblk m c 1 t) (iblk m c 2 t) (iblk m c 3 t) (iblk m c 4 t) (iblk m c 5 t)
      (iblk m c 6 t) (iblk m c 7 t) (iblk m c 8 t) (iblk m c 9 t) := by dsimp only [dats]

end Cert.Kernel.Fr

end
-- ==== Proof.KernelFrameRun.lean ====
/-
  The run of @main to the end of its one grid, at any float instance `F`, and what it leaves in memory.

  @main is one stretch of 28 host operations and then the grid. The host operations allocate nothing and write only
  their own results (`hostWrites`), so every argument array is, when the grid is entered, what it was at the launch.
  At each of the 200 points the body is handed the ten input windows' staging buffers, each holding its window's block
  there (fetched at that point, or still in place from the point where its block index last moved), loads each of them
  whole, and stores one value into the whole of the output window's staging buffer: `out0_10` of the ten blocks. The
  body's load of the output buffer before that store reads contents nothing depends on. With that triple the proof
  data `dats` meet the library's body obligation, and the frame run gives: the grid's output array holds what the
  proof data compute for it after the last point, and every argument array ends as it was launched.
-/
import proofs.«153513_j45535243272619_1_alg».proof.Proof.KernelFrameDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- No host operation allocates a buffer. -/
theorem hostOps0_fresh : (hostOps0 : List (HloOp τ sig (Elt F))).Forall fun op => op.fresh = ∅ := by
  simp only [List.Forall]; repeat' constructor

/-- @main is the stretch of host operations and then the grid, so the grid is entered at the launch memory with those
    operations applied: `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: each operation's one result. -/
abbrev hostWrites : List (Ref sig .tc) :=
  [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_v21, main_v22, main_v23]

/-- Every host operation writes a buffer of that list and no other. -/
theorem hostOps0_writes : (hostOps0 : List (HloOp τ sig (Elt F))).Forall fun op =>
    op.writes ⊆ (hostWrites.map (Proc.devRef (τ := τ) .tc)).toFinset := by
  simp only [List.Forall]
  simp only [StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- A buffer outside that list is, when the grid is entered, as it was launched. -/
theorem V_of (c : Dev nD) (r : Ref sig .tc) (h : r ∉ hostWrites) : V m c r = m ((c : Thread nD τ).loc r) :=
  StableHlo.after_of_writes_sub hostOps0 _ hostOps0_writes h

/-! No argument array is a result of a host operation. -/
theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)

/-! ## What the body finds in the input windows' buffers -/

/-- Input window 0's current staging buffer holds the window's block at every point, for any proof data whose array
    for it is the grid-entry contents and whose body leaves that block in place: where the point fetches it, by the
    fetch; where it does not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, for any proof data whose array
    for it is the grid-entry contents and whose body leaves that block in place: where the point fetches it, by the
    fetch; where it does not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, for any proof data whose array
    for it is the grid-entry contents and whose body leaves that block in place: where the point fetches it, by the
    fetch; where it does not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, for any proof data whose array
    for it is the grid-entry contents and whose body leaves that block in place: where the point fetches it, by the
    fetch; where it does not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, for any proof data whose array
    for it is the grid-entry contents and whose body leaves that block in place: where the point fetches it, by the
    fetch; where it does not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, for any proof data whose array
    for it is the grid-entry contents and whose body leaves that block in place: where the point fetches it, by the
    fetch; where it does not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, for any proof data whose array
    for it is the grid-entry contents and whose body leaves that block in place: where the point fetches it, by the
    fetch; where it does not, the block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block at every point, for any proof data whose array
    for it is the grid-entry contents and whose body leaves that block in place: where the point fetches it, by the
    fetch; where it does not, the block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds the window's block at every point, for any proof data whose array
    for it is the grid-entry contents and whose body leaves that block in place: where the point fetches it, by the
    fetch; where it does not, the block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds the window's block at every point, for any proof data whose array
    for it is the grid-entry contents and whose body leaves that block in place: where the point fetches it, by the
    fetch; where it does not, the block index has not moved since the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! The same of `dats`. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## What the body leaves in the output window's buffer -/

/-- The body's one store takes the output buffer whole, so it covers it. -/
theorem cover0_10 (p0 : Vec F S2000x1 .f32) (y : S2000x1.Idx) :
    ∃ pc ∈ ([⟨rO, p0⟩] : List (View.Piece (Elt F) S2000x1 .f32)), y ∈ pc.1.set :=
  View.cover_of_tiled ([⟨rO, p0⟩] : List (View.Piece (Elt F) S2000x1 .f32)) S2000x1.size (by rfl) y

/-! ## The body's triple -/

set_option maxHeartbeats 1000000 in
/-- The body on whole staging buffers, the ten inputs' at read contents `x0 … x9` and the output's at anything, runs to
    a continuation that holds the inputs' as they were and the output's at `out0_10 x0 … x9`. Its two parts load the
    ten input buffers whole, so the values they hand on are the payloads of those loads; the load of the output
    buffer that follows reads contents no later value depends on; the one store then overwrites the buffer whole, and
    what a view reads of a covering write is the canonical contents of that write. -/
theorem sound_kernel (c : Dev nD) (E : Set ℕ) (i : grid0.Coords) (arg1 : Memref sig .tc .vmem S2000x320 .f32) (harg1 : arg1.IsWhole) (arg2 : Memref sig .tc .vmem S320x160 .f32) (harg2 : arg2.IsWhole) (arg3 : Memref sig .tc .vmem S160x160 .f32) (harg3 : arg3.IsWhole) (arg4 : Memref sig .tc .vmem S320x160 .f32) (harg4 : arg4.IsWhole) (arg5 : Memref sig .tc .vmem S1x160 .f32) (harg5 : arg5.IsWhole) (arg6 : Memref sig .tc .vmem S1x160 .f32) (harg6 : arg6.IsWhole) (arg7 : Memref sig .tc .vmem S1x160 .f32) (harg7 : arg7.IsWhole) (arg8 : Memref sig .tc .vmem S1x160 .f32) (harg8 : arg8.IsWhole) (arg9 : Memref sig .tc .vmem S160x1 .f32) (harg9 : arg9.IsWhole) (arg10 : Memref sig .tc .vmem S1x1 .f32) (harg10 : arg10.IsWhole) (arg11 : Memref sig .tc .vmem S2000x1 .f32) (harg11 : arg11.IsWhole)
    (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9)) -∗ K ⟨⟩))
      ⊢ wp frame (wpE (defs₀ (F := F)) Variants.none c none) E (cc0__mlp_head_kernel i arg1 harg1 arg2 harg2 arg3 harg3 arg4 harg4 arg5 harg5 arg6 harg6 arg7 harg7 arg8 harg8 arg9 harg9 arg10 harg10 arg11 harg11) K := by
  simp only [cc0__mlp_head_kernel_eq_skeleton]; unfold cc0__mlp_head_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The body obligation, at any point -/

/-- What the body is called with at point `t`: the invariant, the core's debt, and each window's current staging buffer
    whole, at what the proof data say it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: each input buffer holds its window's block there, so the body's triple applies at the ten
    blocks; the invariant and the core's debt are the same before and after and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (c := c) (E := Set.univ) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main on the TensorCores terminates, and in every
    final state each array of the grid holds what the proof data compute for it after the last point and every other
    unscoped buffer what it held when the grid was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run read at the output array and at the arguments: the output window's array `main_v24` ends at what the proof
    data compute for it after the last point; each argument is an unscoped buffer that is no window's array, so it
    ends as the grid found it, which is as it was launched. -/
theorem run_named : θ_run defs (onTc (τ := τ) (main (F := F))) ⟨m, fun _ => 0, ρ⟩ (fun r => ∀ c : Dev nD,
      r.2.mem ((c.tc : Thread nD τ).loc main_v24) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

/-- The arguments alone: every execution of @main terminates and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_named m ρ)

end Cert.Kernel.Fr

end
-- ==== Proof.KernelIdealFrameDefs.lean ====
/-
  The data of the kernel's run, at any float instance `F`.

  @main is 28 host operations (the two gathers of the actors' rows, the join of the four feature arrays into
  `x : 400000 × 320`, the transposes of the weights, the reshapes of the affine vectors and the bias) followed by one
  grid of 200 points. `V c b` is what buffer `b` of core `c` holds when the grid is entered: the launch memory with
  those 28 operations applied. Point `t` is handed block `t` (2000 rows) of `x` and the whole of each weight array —
  `iblk c w t`, window `w`'s block read off `V` — and stores ONE value into its 2000 × 1 output block: the head's
  logits of those 2000 rows, `k0_pay3` of the loaded blocks (`out0_10`). The proof data `dats` records exactly this:
  after the body every input window's buffer still holds its block, the output window's holds `out0_10` of the ten
  input blocks; the body keeps nothing between points and signals no one.
-/
import proofs.«153513_j45535243272619_1_alg».proof.Proof.Gen.KernelIdeal.Launch
import proofs.«153513_j45535243272619_1_alg».proof.Proof.Gen.KernelIdeal.Skeleton
import proofs.«153513_j45535243272619_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the grid is entered -/

/-- Core `c`'s TensorCore buffers when the grid is entered: the launch memory after the 28 host operations. -/
abbrev V (c : Dev nD) (b : Ref sig .tc) : Buf (Elt F) ((c : Thread nD τ).loc b) :=
  StableHlo.after hostOps0 (fun b => m (c, b)) b

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a buffer whole -/

abbrev rX : Rect S2000x320 := Rect.unit (s := S2000x320) ![0, 0] S2000x320.size inb_S2000x320_S2000x320_0_0
abbrev rW : Rect S320x160 := Rect.unit (s := S320x160) ![0, 0] S320x160.size inb_S320x160_S320x160_0_0
abbrev rS : Rect S160x160 := Rect.unit (s := S160x160) ![0, 0] S160x160.size inb_S160x160_S160x160_0_0
abbrev rG : Rect S1x160 := Rect.unit (s := S1x160) ![0, 0] S1x160.size inb_S1x160_S1x160_0_0
abbrev rH : Rect S160x1 := Rect.unit (s := S160x1) ![0, 0] S160x1.size inb_S160x1_S160x1_0_0
abbrev rB : Rect S1x1 := Rect.unit (s := S1x1) ![0, 0] S1x1.size inb_S1x1_S1x1_0_0
abbrev rO : Rect S2000x1 := Rect.unit (s := S2000x1) ![0, 0] S2000x1.size inb_S2000x1_S2000x1_0_0

/-! ## What the body leaves in the output window's buffer -/

/-- The logits of the block's 2000 rows, from the ten input blocks: the rows `x0`, the transposed weights
    `x1` (first layer), `x2` (second layer), `x3` (the residual's transform), the affine rows `x4 x5` (first
    normalisation) and `x6 x7` (second), the head's column `x8` and its bias `x9`. -/
def logits (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) : FVec F S2000x1 .f32 :=
  k0_pay3 (k0_pay1 (View.ld x0 rX))
    (k0_pay2 (View.ld x0 rX) (View.ld x1 rW) (View.ld x4 rG) (View.ld x5 rG) (View.ld x2 rS))
    (View.ld x6 rG) (View.ld x7 rG) (View.ld x3 rW) (View.ld x8 rH) (View.ld x9 rB)

/-- The output window's staging buffer after the body: its one store, which takes the buffer whole. -/
def out0_10 (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) : Vec F S2000x1 .f32 :=
  View.canon [⟨rO, logits x0 x1 x2 x3 x4 x5 x6 x7 x8 x9⟩]

/-! ## The proof data -/

/-- The one pipeline's proof data on core `c`: the arrays as the grid finds them; after the body at point `t` each
    input window's buffer at its block and the output window's at `out0_10` of the input blocks; the body uses no
    scratch, owes nothing and holds every buffer in full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t)
        (iblk m c 6 t) (iblk m c 7 t) (iblk m c 8 t) (iblk m c 9 t)
  Φ _ := Pipeline.ΦA spec0 c
  q _ := fullShare
  owed _ := 0

/-- The proof data's arrays are the grid-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t =
    out0_10 (iblk m c 0 t) (iblk m c 1 t) (iblk m c 2 t) (iblk m c 3 t) (iblk m c 4 t) (iblk m c 5 t)
      (iblk m c 6 t) (iblk m c 7 t) (iblk m c 8 t) (iblk m c 9 t) := by dsimp only [dats]

end Cert.KernelIdeal.Fr

end
-- ==== Proof.KernelIdealFrameRun.lean ====
/-
  The run of @main to the end of its one grid, at any float instance `F`, and what it leaves in memory.

  @main is one stretch of 28 host operations and then the grid. The host operations allocate nothing and write only
  their own results (`hostWrites`), so every argument array is, when the grid is entered, what it was at the launch.
  At each of the 200 points the body is handed the ten input windows' staging buffers, each holding its window's block
  there (fetched at that point, or still in place from the point where its block index last moved), loads each of them
  whole, and stores one value into the whole of the output window's staging buffer: `out0_10` of the ten blocks. The
  body's load of the output buffer before that store reads contents nothing depends on. With that triple the proof
  data `dats` meet the library's body obligation, and the frame run gives: the grid's output array holds what the
  proof data compute for it after the last point, and every argument array ends as it was launched.
-/
import proofs.«153513_j45535243272619_1_alg».proof.Proof.KernelIdealFrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- No host operation allocates a buffer. -/
theorem hostOps0_fresh : (hostOps0 : List (HloOp τ sig (Elt F))).Forall fun op => op.fresh = ∅ := by
  simp only [List.Forall]; repeat' constructor

/-- @main is the stretch of host operations and then the grid, so the grid is entered at the launch memory with those
    operations applied: `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: each operation's one result. -/
abbrev hostWrites : List (Ref sig .tc) :=
  [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_v21, main_v22, main_v23]

/-- Every host operation writes a buffer of that list and no other. -/
theorem hostOps0_writes : (hostOps0 : List (HloOp τ sig (Elt F))).Forall fun op =>
    op.writes ⊆ (hostWrites.map (Proc.devRef (τ := τ) .tc)).toFinset := by
  simp only [List.Forall]
  simp only [StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- A buffer outside that list is, when the grid is entered, as it was launched. -/
theorem V_of (c : Dev nD) (r : Ref sig .tc) (h : r ∉ hostWrites) : V m c r = m ((c : Thread nD τ).loc r) :=
  StableHlo.after_of_writes_sub hostOps0 _ hostOps0_writes h

/-! No argument array is a result of a host operation. -/
theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)

/-! ## What the body finds in the input windows' buffers -/

/-- Input window 0's current staging buffer holds the window's block at every point, for any proof data whose array
    for it is the grid-entry contents and whose body leaves that block in place: where the point fetches it, by the
    fetch; where it does not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, for any proof data whose array
    for it is the grid-entry contents and whose body leaves that block in place: where the point fetches it, by the
    fetch; where it does not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, for any proof data whose array
    for it is the grid-entry contents and whose body leaves that block in place: where the point fetches it, by the
    fetch; where it does not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, for any proof data whose array
    for it is the grid-entry contents and whose body leaves that block in place: where the point fetches it, by the
    fetch; where it does not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, for any proof data whose array
    for it is the grid-entry contents and whose body leaves that block in place: where the point fetches it, by the
    fetch; where it does not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, for any proof data whose array
    for it is the grid-entry contents and whose body leaves that block in place: where the point fetches it, by the
    fetch; where it does not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, for any proof data whose array
    for it is the grid-entry contents and whose body leaves that block in place: where the point fetches it, by the
    fetch; where it does not, the block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block at every point, for any proof data whose array
    for it is the grid-entry contents and whose body leaves that block in place: where the point fetches it, by the
    fetch; where it does not, the block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds the window's block at every point, for any proof data whose array
    for it is the grid-entry contents and whose body leaves that block in place: where the point fetches it, by the
    fetch; where it does not, the block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds the window's block at every point, for any proof data whose array
    for it is the grid-entry contents and whose body leaves that block in place: where the point fetches it, by the
    fetch; where it does not, the block index has not moved since the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! The same of `dats`. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## What the body leaves in the output window's buffer -/

/-- The body's one store takes the output buffer whole, so it covers it. -/
theorem cover0_10 (p0 : Vec F S2000x1 .f32) (y : S2000x1.Idx) :
    ∃ pc ∈ ([⟨rO, p0⟩] : List (View.Piece (Elt F) S2000x1 .f32)), y ∈ pc.1.set :=
  View.cover_of_tiled ([⟨rO, p0⟩] : List (View.Piece (Elt F) S2000x1 .f32)) S2000x1.size (by rfl) y

/-! ## The body's triple -/

set_option maxHeartbeats 1000000 in
/-- The body on whole staging buffers, the ten inputs' at read contents `x0 … x9` and the output's at anything, runs to
    a continuation that holds the inputs' as they were and the output's at `out0_10 x0 … x9`. Its two parts load the
    ten input buffers whole, so the values they hand on are the payloads of those loads; the load of the output
    buffer that follows reads contents no later value depends on; the one store then overwrites the buffer whole, and
    what a view reads of a covering write is the canonical contents of that write. -/
theorem sound_kernel (c : Dev nD) (E : Set ℕ) (i : grid0.Coords) (arg1 : Memref sig .tc .vmem S2000x320 .f32) (harg1 : arg1.IsWhole) (arg2 : Memref sig .tc .vmem S320x160 .f32) (harg2 : arg2.IsWhole) (arg3 : Memref sig .tc .vmem S160x160 .f32) (harg3 : arg3.IsWhole) (arg4 : Memref sig .tc .vmem S320x160 .f32) (harg4 : arg4.IsWhole) (arg5 : Memref sig .tc .vmem S1x160 .f32) (harg5 : arg5.IsWhole) (arg6 : Memref sig .tc .vmem S1x160 .f32) (harg6 : arg6.IsWhole) (arg7 : Memref sig .tc .vmem S1x160 .f32) (harg7 : arg7.IsWhole) (arg8 : Memref sig .tc .vmem S1x160 .f32) (harg8 : arg8.IsWhole) (arg9 : Memref sig .tc .vmem S160x1 .f32) (harg9 : arg9.IsWhole) (arg10 : Memref sig .tc .vmem S1x1 .f32) (harg10 : arg10.IsWhole) (arg11 : Memref sig .tc .vmem S2000x1 .f32) (harg11 : arg11.IsWhole)
    (x0 : Vec F S2000x320 .f32) (x1 : Vec F S320x160 .f32) (x2 : Vec F S160x160 .f32) (x3 : Vec F S320x160 .f32)
    (x4 x5 x6 x7 : Vec F S1x160 .f32) (x8 : Vec F S160x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9)) -∗ K ⟨⟩))
      ⊢ wp frame (wpE (defs₀ (F := F)) Variants.none c none) E (cc0__mlp_head_kernel i arg1 harg1 arg2 harg2 arg3 harg3 arg4 harg4 arg5 harg5 arg6 harg6 arg7 harg7 arg8 harg8 arg9 harg9 arg10 harg10 arg11 harg11) K := by
  simp only [cc0__mlp_head_kernel_eq_skeleton]; unfold cc0__mlp_head_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The body obligation, at any point -/

/-- What the body is called with at point `t`: the invariant, the core's debt, and each window's current staging buffer
    whole, at what the proof data say it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: each input buffer holds its window's block there, so the body's triple applies at the ten
    blocks; the invariant and the core's debt are the same before and after and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (c := c) (E := Set.univ) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main on the TensorCores terminates, and in every
    final state each array of the grid holds what the proof data compute for it after the last point and every other
    unscoped buffer what it held when the grid was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run read at the output array and at the arguments: the output window's array `main_v24` ends at what the proof
    data compute for it after the last point; each argument is an unscoped buffer that is no window's array, so it
    ends as the grid found it, which is as it was launched. -/
theorem run_named : θ_run defs (onTc (τ := τ) (main (F := F))) ⟨m, fun _ => 0, ρ⟩ (fun r => ∀ c : Dev nD,
      r.2.mem ((c.tc : Thread nD τ).loc main_v24) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

/-- The arguments alone: every execution of @main terminates and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_named m ρ)

end Cert.KernelIdeal.Fr

end
-- ==== Proof.RowSpec.lean ====
/-
  What both programs compute, one row at a time, on the extended reals.

  A row `x : Fin 320 → EReal` (a path's features, its gathered actor's features and the two embeddings, joined)
  goes through a residual block and a linear head:

    h   = x · w1ᵀ                                   (`lin`: h j = ∑ k, x k * w1 j k)
    a   = relu (gnorm h g1w g1b)
    h₂  = gnorm (a · w2ᵀ) g2w g2b
    out = (∑ k, relu (h₂ k + (x · wtᵀ) k) * wh k) + bh

  `gnorm` is a group normalisation with ONE group of the 160 channels: with μ the row's mean and σ² the mean of the
  squared deviations, channel j becomes (h j - μ) · (σ² + ε)^(-1/2) · g j + b j. The divisor 160, ε and the zero that relu
  compares with are the f32 words both programs carry, read at the ideal values; they are never evaluated: each
  stands for the same extended real on both sides. Every sum is a `Finset` sum on the extended reals, whose
  addition is commutative and associative, so no order of summation is fixed here and none matters.
-/
import Idealize.ShloMosaic.PureOps.Ideal

noncomputable section

open scoped BigOperators

namespace Cert.RowSpec

open Idealize.ShloMosaic

/-- The channel count 160 as both programs write it: the f32 word of `160.0`. -/
abbrev c160 : EReal := Ideal.ofBits .f32 0x43200000#32
/-- The ε under the square root: the f32 word nearest `1e-5`, the same word in both programs. -/
abbrev ceps : EReal := Ideal.ofBits .f32 0x3727C5AC#32
/-- The f32 zero word relu compares with. -/
abbrev czero : EReal := Ideal.ofBits .f32 0x00000000#32

/-- A linear layer without bias applied to one row: `(x · wᵀ) j = ∑ k, x k * w j k`. -/
def lin {K J : Nat} (x : Fin K → EReal) (w : Fin J → Fin K → EReal) (j : Fin J) : EReal :=
  ∑ k : Fin K, x k * w j k

/-- The mean of a row of 160 channels: their sum divided by the word `160.0`. -/
def mean (h : Fin 160 → EReal) : EReal := Ideal.div (∑ j : Fin 160, h j) c160

/-- Group normalisation with one group, then the per-channel affine map. -/
def gnorm (h g b : Fin 160 → EReal) (j : Fin 160) : EReal :=
  (h j - mean h) * Ideal.rsqrt (mean (fun i => (h i - mean h) * (h i - mean h)) + ceps) * g j + b j

/-- `relu`: the larger of the value and the zero word. -/
def relu (x : EReal) : EReal := max x czero

/-- The whole block and head on one row. -/
def rowOut (x : Fin 320 → EReal) (w1 : Fin 160 → Fin 320 → EReal) (w2 : Fin 160 → Fin 160 → EReal)
    (wt : Fin 160 → Fin 320 → EReal) (g1w g1b g2w g2b : Fin 160 → EReal) (wh : Fin 160 → EReal) (bh : EReal) : EReal :=
  (∑ k : Fin 160,
      relu (gnorm (lin (fun i => relu (gnorm (lin x w1) g1w g1b i)) w2) g2w g2b k + lin x wt k) * wh k) + bh

end Cert.RowSpec

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KernelIdealPayload.lean ====
/-
  The kernel body's stored value, one row at a time.

  The body stores `k0_pay3 (k0_pay1 x) (k0_pay2 x w1ᵀ g1w g1b w2ᵀ) g2w g2b wtᵀ whᵀ bh`: a 2000 × 1 block whose row `p`
  depends only on row `p` of the 2000 × 320 block `x` — every matrix product contracts the channel axis of that row, every
  lane sum runs along that row, and everything else is elementwise or a broadcast along the row. At the ideal values
  (a change of float format is the identity, `tpu.matmul` into the zero accumulator is the plain sum of products, a
  `multi_reduction <add>` from the neutral word is the plain sum) that row is `RowSpec.rowOut` of row `p` of `x` and the
  weights read through their transposed layout: `w1ᵀ (k, j)` stands where `rowOut` reads `w1 j k`.
-/
import proofs.«153513_j45535243272619_1_alg».proof.Proof.Gen.KernelIdeal.Skeleton
import proofs.«153513_j45535243272619_1_alg».proof.Proof.RowSpec
import proofs.«153513_j45535243272619_1_alg».proof.Proof.LibContraction
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.RowSpec

/-! ## The lane sum, the column layout steps -/

/-- The sum of a block along its lanes, read at row `p`: the sum of that row. The inserted coordinate is the lane. -/
theorem rowSum_apply (v : FVec Ideal S2000x160 .f32) (hφ : FKind.Formats .f32)
    (hacc : (0x00000000#32 : BitVec 32) = FKind.add.neutral .f32 hφ) (p : Fin 2000) :
    multiReduction (F := Ideal) .add [1] S2000 v 0x00000000#32 reduces_S2000x160_S2000 hφ hacc (ix1 p)
      = ∑ k : Fin 160, v (ix2 p k) := by
  refine (Ideal.multiReduction_add_single v _ reduces_S2000x160_S2000 hφ hacc (ix1 p)).trans ?_
  exact Finset.sum_congr rfl fun k _ => congrArg v (funext fun a => Fin.ext (match a with | ⟨0, _⟩ => rfl | ⟨1, _⟩ => rfl))

/-- A vector viewed as a column: row `p` of the column is entry `p` (the row-major positions agree, the unit axis adds
    nothing). -/
theorem keepdims_apply {α : Type} (v : S2000.Idx → α) (p : Fin 2000) (u : Fin 1) :
    shapeCast S2000x1 v shapeCasts_S2000_S2000x1 (ix2 p u) = v (ix1 p) :=
  shapeCast_apply v _ _ _ (by
    have hu : u.val = 0 := by omega
    rw [Shape.rowMajor_val_one, Shape.rowMajor_val_two]
    show p.val = p.val * 1 + u.val
    rw [hu, Nat.mul_one, Nat.add_zero])

/-- A column spread along the lanes reads its row's one entry at every lane. -/
theorem bcol_apply {α : Type} (v : S2000x1.Idx → α) (p : Fin 2000) (j : Fin 160) :
    broadcastTo S2000x160 v broadcasts_S2000x1_S2000x160 (ix2 p j) = v (ix2 p (0 : Fin 1)) := by
  refine broadcastTo_apply v _ (ix2 p j) (ix2 p (0 : Fin 1)) fun ax => ?_
  match ax with
  | ⟨0, _⟩ => rfl
  | ⟨1, _⟩ => rfl

/-- A single row spread over the rows reads that row's lane `j` at every row. -/
theorem brow_apply {α : Type} (v : S1x160.Idx → α) (p : Fin 2000) (j : Fin 160) :
    broadcastTo S2000x160 v broadcasts_S1x160_S2000x160 (ix2 p j) = v (ix2 (0 : Fin 1) j) :=
  broadcastTo_1b_ab_apply v _ p j

/-- A single entry spread over a column reads that entry at every row. -/
theorem bone_apply {α : Type} (v : S1x1.Idx → α) (p : Fin 2000) (u : Fin 1) :
    broadcastTo S2000x1 v broadcasts_S1x1_S2000x1 (ix2 p u) = v (ix2 (0 : Fin 1) (0 : Fin 1)) := by
  refine broadcastTo_apply v _ (ix2 p u) (ix2 (0 : Fin 1) (0 : Fin 1)) fun ax => ?_
  match ax with
  | ⟨0, _⟩ => rfl
  | ⟨1, _⟩ => rfl

open Cert.Lib.Contraction in
/-- A product of an `m × n` block with an `n × q` block into the zero accumulator, read at `(p, j)`: the sum over the
    contracted coordinate `k` of `A (p, k) * B (k, j)`. The dimension numbers contract axis 1 of the left operand with
    axis 0 of the right one and have no batch axis. -/
theorem matmul_ix2 {m n q : Nat} (d : DotDims ⟨2, ![m, n]⟩ ⟨2, ![n, q]⟩ ⟨2, ![m, q]⟩)
    (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (A : FVec Ideal ⟨2, ![m, n]⟩ φ₁) (B : FVec Ideal ⟨2, ![n, q]⟩ φ₂) (p : Fin m) (j : Fin q) :
    matmul (F := Ideal) d none A B (constant (F := Ideal) ⟨2, ![m, q]⟩ .f32 0x00000000#32) (ix2 p j)
      = ∑ k : Fin n, A (ix2 p k) * B (ix2 k j) := by
  refine (Ideal.matmul_constant_zero_apply d none A B (ix2 p j)).trans ?_
  refine (sum_contr d hlc n rfl _).trans ?_
  refine Finset.sum_congr rfl fun i _ => ?_
  have hl : d.lhsIdx (ix2 p j) ((contrFin d hlc n rfl).symm i) = ix2 p i :=
    funext fun a => Fin.ext (match a with
      | ⟨0, _⟩ => lhs_free d hlb hln (ix2 p j) _ Nat.zero_lt_two
      | ⟨1, _⟩ => lhs_contracted d hlc n rfl (ix2 p j) i)
  have hr : d.rhsIdx (ix2 p j) ((contrFin d hlc n rfl).symm i) = ix2 i j :=
    funext fun a => Fin.ext (match a with
      | ⟨0, _⟩ => rhs_contracted d hlc hrc n rfl (ix2 p j) i
      | ⟨1, _⟩ => rhs_free d hlb hrb hln hrn (ix2 p j) _ Nat.one_lt_two)
  rw [hl, hr]

/-! ## The group normalisation of a block -/

/-- The lane sum of a block, kept as a column, divided by the word `160.0`: each row's mean. -/
def meanCol (h : FVec Ideal S2000x160 .f32) : FVec Ideal S2000x1 .f32 :=
  divf (shapeCast S2000x1
      (multiReduction (F := Ideal) .add [1] S2000 h 0x00000000#32 reduces_S2000x160_S2000 (.inl rfl) rfl)
      shapeCasts_S2000_S2000x1)
    (broadcast S2000x1 (Scalar.ofBits .f32 0x43200000#32))

/-- Row `p` of the mean column is the mean of row `p`. -/
theorem meanCol_apply (h : FVec Ideal S2000x160 .f32) (p : Fin 2000) (u : Fin 1) :
    meanCol h (ix2 p u) = mean (fun i => h (ix2 p i)) :=
  congrArg (fun s => Ideal.div s c160) ((keepdims_apply _ p u).trans (rowSum_apply h _ _ p))

/-- The block less its rows' means. -/
def centred (h : FVec Ideal S2000x160 .f32) : FVec Ideal S2000x160 .f32 :=
  subf h (broadcastTo S2000x160 (meanCol h) broadcasts_S2000x1_S2000x160)

theorem centred_apply (h : FVec Ideal S2000x160 .f32) (p : Fin 2000) (j : Fin 160) :
    centred h (ix2 p j) = h (ix2 p j) - mean (fun i => h (ix2 p i)) :=
  congrArg (fun s => h (ix2 p j) - s) ((bcol_apply _ p j).trans (meanCol_apply h p 0))

/-- The kernel's group normalisation of a block with one group: centre each row, scale it by the reciprocal square root of
    its variance plus ε, then the per-channel affine map. -/
def gnVec (h : FVec Ideal S2000x160 .f32) (g b : FVec Ideal S1x160 .f32) : FVec Ideal S2000x160 .f32 :=
  addf
    (mulf
      (mulf (centred h)
        (broadcastTo S2000x160
          (rsqrt (addf (meanCol (mulf (centred h) (centred h))) (broadcast S2000x1 (Scalar.ofBits .f32 0x3727C5AC#32))))
          broadcasts_S2000x1_S2000x160))
      (broadcastTo S2000x160 g broadcasts_S1x160_S2000x160))
    (broadcastTo S2000x160 b broadcasts_S1x160_S2000x160)

/-- Row `p` of the normalised block is `gnorm` of row `p`. -/
theorem gnVec_apply (h : FVec Ideal S2000x160 .f32) (g b : FVec Ideal S1x160 .f32) (p : Fin 2000) (j : Fin 160) :
    gnVec h g b (ix2 p j)
      = gnorm (fun i => h (ix2 p i)) (fun i => g (ix2 (0 : Fin 1) i)) (fun i => b (ix2 (0 : Fin 1) i)) j := by
  have hvar : meanCol (mulf (centred h) (centred h)) (ix2 p (0 : Fin 1))
      = mean (fun i => (h (ix2 p i) - mean (fun i => h (ix2 p i))) * (h (ix2 p i) - mean (fun i => h (ix2 p i)))) :=
    (meanCol_apply _ p 0).trans (congrArg mean (funext fun i => by
      show centred h (ix2 p i) * centred h (ix2 p i) = _
      rw [centred_apply]))
  show centred h (ix2 p j)
        * broadcastTo S2000x160
            (rsqrt (addf (meanCol (mulf (centred h) (centred h))) (broadcast S2000x1 (Scalar.ofBits .f32 0x3727C5AC#32))))
            broadcasts_S2000x1_S2000x160 (ix2 p j)
        * broadcastTo S2000x160 g broadcasts_S1x160_S2000x160 (ix2 p j)
      + broadcastTo S2000x160 b broadcasts_S1x160_S2000x160 (ix2 p j) = _
  rw [bcol_apply, brow_apply, brow_apply, centred_apply]
  show _ * Ideal.rsqrt (meanCol (mulf (centred h) (centred h)) (ix2 p (0 : Fin 1)) + ceps) * _ + _ = _
  rw [hvar]
  rfl

/-! ## The three linear layers -/

/-- A 320-channel linear layer applied to the input block: the block, at the narrower format, times the transposed weights. -/
def lin1Vec (x0 : Vec Ideal S2000x320 .f32) (wt : Vec Ideal S320x160 .f32) : FVec Ideal S2000x160 .f32 :=
  matmul (F := Ideal) dot_S2000x320_S320x160_S2000x160_1_0_0_1_n_n none (k0_pay1 x0)
    (truncf .bf16 (shapeCast S320x160 wt shapeCasts_S320x160_S320x160) bitsLt_bf16_f32)
    (constant (F := Ideal) S2000x160 .f32 0x00000000#32)

/-- Row `p` of it is `lin` of row `p` of the input: the format changes are the identity and `wt (k, j)` stands for `w j k`. -/
theorem lin1Vec_apply (x0 : Vec Ideal S2000x320 .f32) (wt : Vec Ideal S320x160 .f32) (p : Fin 2000) (j : Fin 160) :
    lin1Vec x0 wt (ix2 p j) = lin (fun k : Fin 320 => x0 (ix2 p k)) (fun (j : Fin 160) (k : Fin 320) => wt (ix2 k j)) j := by
  refine (matmul_ix2 dot_S2000x320_S320x160_S2000x160_1_0_0_1_n_n rfl rfl rfl rfl rfl rfl _ _ p j).trans ?_
  refine Finset.sum_congr rfl fun k _ => ?_
  show shapeCast S2000x320 x0 shapeCasts_S2000x320_S2000x320 (ix2 p k)
      * shapeCast S320x160 wt shapeCasts_S320x160_S320x160 (ix2 k j) = x0 (ix2 p k) * wt (ix2 k j)
  rw [shapeCast_self, shapeCast_self]

/-- Row `p` of the residual block's second linear layer, before its normalisation. -/
theorem pay2_apply (x0 : Vec Ideal S2000x320 .f32) (w1t : Vec Ideal S320x160 .f32) (g1w g1b : Vec Ideal S1x160 .f32)
    (w2t : Vec Ideal S160x160 .f32) (p : Fin 2000) (j : Fin 160) :
    k0_pay2 (F := Ideal) x0 w1t g1w g1b w2t (ix2 p j)
      = lin (fun i : Fin 160 => relu (gnorm
            (lin (fun k : Fin 320 => x0 (ix2 p k)) (fun (j : Fin 160) (k : Fin 320) => w1t (ix2 k j)))
            (fun j : Fin 160 => g1w (ix2 (0 : Fin 1) j)) (fun j : Fin 160 => g1b (ix2 (0 : Fin 1) j)) i))
          (fun (j : Fin 160) (k : Fin 160) => w2t (ix2 k j)) j := by
  show matmul (F := Ideal) dot_S2000x160_S160x160_S2000x160_1_0_0_1_n_n none
      (truncf .bf16
        (maximumf
          (gnVec (lin1Vec x0 w1t) (shapeCast S1x160 g1w shapeCasts_S1x160_S1x160) (shapeCast S1x160 g1b shapeCasts_S1x160_S1x160))
          (broadcast S2000x160 (Scalar.ofBits .f32 0x00000000#32)))
        bitsLt_bf16_f32)
      (truncf .bf16 (shapeCast S160x160 w2t shapeCasts_S160x160_S160x160) bitsLt_bf16_f32)
      (constant (F := Ideal) S2000x160 .f32 0x00000000#32) (ix2 p j) = _
  refine (matmul_ix2 dot_S2000x160_S160x160_S2000x160_1_0_0_1_n_n rfl rfl rfl rfl rfl rfl _ _ p j).trans ?_
  refine Finset.sum_congr rfl fun k _ => ?_
  show max (gnVec (lin1Vec x0 w1t) (shapeCast S1x160 g1w shapeCasts_S1x160_S1x160)
        (shapeCast S1x160 g1b shapeCasts_S1x160_S1x160) (ix2 p k)) czero
      * shapeCast S160x160 w2t shapeCasts_S160x160_S160x160 (ix2 k j) = _
  rw [gnVec_apply, shapeCast_self, shapeCast_self, shapeCast_self, funext (lin1Vec_apply x0 w1t p)]
  rfl

/-! ## The stored block -/

/-- Row `p` of the block the body stores is `rowOut` of row `p` of the input block and the (transposed) weights. -/
theorem pay3_row (x0 : Vec Ideal S2000x320 .f32) (w1t : Vec Ideal S320x160 .f32) (w2t : Vec Ideal S160x160 .f32)
    (wtt : Vec Ideal S320x160 .f32) (g1w g1b g2w g2b : Vec Ideal S1x160 .f32) (wht : Vec Ideal S160x1 .f32)
    (bh : Vec Ideal S1x1 .f32) (p : Fin 2000) :
    k0_pay3 (F := Ideal) (k0_pay1 x0) (k0_pay2 x0 w1t g1w g1b w2t) g2w g2b wtt wht bh (ix2 p (0 : Fin 1))
      = rowOut (fun k : Fin 320 => x0 (ix2 p k)) (fun (j : Fin 160) (k : Fin 320) => w1t (ix2 k j))
          (fun (j : Fin 160) (k : Fin 160) => w2t (ix2 k j)) (fun (j : Fin 160) (k : Fin 320) => wtt (ix2 k j))
          (fun j : Fin 160 => g1w (ix2 (0 : Fin 1) j)) (fun j : Fin 160 => g1b (ix2 (0 : Fin 1) j))
          (fun j : Fin 160 => g2w (ix2 (0 : Fin 1) j)) (fun j : Fin 160 => g2b (ix2 (0 : Fin 1) j))
          (fun k : Fin 160 => wht (ix2 k (0 : Fin 1))) (bh (ix2 (0 : Fin 1) (0 : Fin 1))) := by
  show matmul (F := Ideal) dot_S2000x160_S160x1_S2000x1_1_0_0_1_n_n none
        (truncf .bf16
          (maximumf
            (addf
              (gnVec (k0_pay2 (F := Ideal) x0 w1t g1w g1b w2t) (shapeCast S1x160 g2w shapeCasts_S1x160_S1x160)
                (shapeCast S1x160 g2b shapeCasts_S1x160_S1x160))
              (lin1Vec x0 wtt))
            (broadcast S2000x160 (Scalar.ofBits .f32 0x00000000#32)))
          bitsLt_bf16_f32)
        (truncf .bf16 (shapeCast S160x1 wht shapeCasts_S160x1_S160x1) bitsLt_bf16_f32)
        (constant (F := Ideal) S2000x1 .f32 0x00000000#32) (ix2 p (0 : Fin 1))
      + broadcastTo S2000x1 (shapeCast S1x1 bh shapeCasts_S1x1_S1x1) broadcasts_S1x1_S2000x1 (ix2 p (0 : Fin 1)) = _
  refine congrArg₂ (· + ·) ?_ ?_
  · refine (matmul_ix2 dot_S2000x160_S160x1_S2000x1_1_0_0_1_n_n rfl rfl rfl rfl rfl rfl _ _ p (0 : Fin 1)).trans ?_
    refine Finset.sum_congr rfl fun k _ => ?_
    show max (gnVec (k0_pay2 (F := Ideal) x0 w1t g1w g1b w2t) (shapeCast S1x160 g2w shapeCasts_S1x160_S1x160)
            (shapeCast S1x160 g2b shapeCasts_S1x160_S1x160) (ix2 p k)
          + lin1Vec x0 wtt (ix2 p k)) czero
        * shapeCast S160x1 wht shapeCasts_S160x1_S160x1 (ix2 k (0 : Fin 1)) = _
    rw [gnVec_apply, lin1Vec_apply, shapeCast_self, shapeCast_self, shapeCast_self,
      funext (pay2_apply x0 w1t g1w g1b w2t p)]
    rfl
  · refine (bone_apply _ p (0 : Fin 1)).trans ?_
    rw [shapeCast_self]

end Cert.KernelIdeal.Pay

end
-- ==== Proof.KernelIdealValue.lean ====
/-
  The kernel's result array as one function of the argument arrays.

  Point `t` of the grid is handed rows `2000·t … 2000·t + 1999` of the joined feature array and the whole of every
  weight array (their index maps are constant), and writes rows `2000·t …` of the result. The weight arrays the grid
  sees are layout changes of the arguments: `w1ᵀ (k, j) = w1 (j, k)` and likewise for `w2`, `wt`, `wh`; the affine
  vectors and the bias with a unit axis added. The stored block's row `p` is `rowOut` of row `p` of the block and those
  weights, so row `n = 2000·t + p` of the result is `rowOut` of row `n` of the joined features and the weights as given:
  the same function of the arguments at every point. The 200 blocks tile the 400000 rows (row `n` lies in block
  `n / 2000`), so the result array IS that function, whole.
-/
import proofs.«153513_j45535243272619_1_alg».proof.Proof.KernelIdealFrameDefs
import proofs.«153513_j45535243272619_1_alg».proof.Proof.KernelIdealPayload
import proofs.«153513_j45535243272619_1_alg».proof.Proof.RowSpec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay Cert.RowSpec
open Idealize.ShloMosaic Idealize.ShloMosaic.TcCoe Idealize.SL.Sem Idealize.ShloMosaic.StableHlo Idealize.ShloMosaic.ValueIdx
open Idealize.ShloMosaic.Pipeline (Dat)

/-! ## The arrays the grid finds, as functions of the arguments -/

section Joined

variable {F : FTy → Type} [FloatOps F]

/-- An index vector made non-negative the way jnp indexing does it: a negative entry has the table's height 40000
    added. -/
def wrapIdx (x4 : (⟨S400000, .i32⟩ : BufTy).Contents (Elt F)) : (⟨S400000x1, .i32⟩ : BufTy).Contents (Elt F) :=
  broadcastInDim S400000x1 ![0] bcast_S400000_S400000x1_0
    (select (cmpi .slt x4 (broadcastInDim S400000 ![] bcast_S_S400000 (constantI S_ 32 0#32)))
      (addi x4 (broadcastInDim S400000 ![] bcast_S_S400000 (constantI S_ 32 40000#32))) x4)

/-- The joined features: each path's own features and embedding beside the row of its actor (gathered by the
    path's index) and that actor's embedding, along the channel axis. -/
def joined (x0 : (⟨S40000x128, .f32⟩ : BufTy).Contents (Elt F)) (x1 : (⟨S400000x128, .f32⟩ : BufTy).Contents (Elt F))
    (x2 : (⟨S40000x32, .f32⟩ : BufTy).Contents (Elt F)) (x3 : (⟨S400000x32, .f32⟩ : BufTy).Contents (Elt F))
    (x4 : (⟨S400000, .i32⟩ : BufTy).Contents (Elt F)) : (⟨S400000x320, .f32⟩ : BufTy).Contents (Elt F) :=
  concatenate S400000x320 1
    [⟨S400000x128, x1⟩, ⟨S400000x32, x3⟩,
     ⟨S400000x128, Host.gather gather_S40000x128_S400000x1_S400000x128_1_0_n_n_0_1_1128 x0 (wrapIdx x4)⟩,
     ⟨S400000x32, Host.gather gather_S40000x32_S400000x1_S400000x32_1_0_n_n_0_1_132 x2 (wrapIdx x4)⟩]
    concatenates_S400000x128_S400000x32_S400000x128_S400000x32_S400000x320_d1

end Joined

variable (m : (ℓ : Loc nD τ sig) → Buf (Elt Ideal) ℓ) (ρ : Dev nD → PrngReg)

/-- Joining is a function of the four pieces: equal pieces give equal joins. -/
theorem joined_congr {α : Type} (a0 b0 : S400000x128.Idx → α) (a1 b1 : S400000x32.Idx → α) (a2 b2 : S400000x128.Idx → α)
    (a3 b3 : S400000x32.Idx → α) (e0 : a0 = b0) (e1 : a1 = b1) (e2 : a2 = b2) (e3 : a3 = b3) :
    concatenate S400000x320 1 [⟨S400000x128, a0⟩, ⟨S400000x32, a1⟩, ⟨S400000x128, a2⟩, ⟨S400000x32, a3⟩]
        concatenates_S400000x128_S400000x32_S400000x128_S400000x32_S400000x320_d1
      = concatenate S400000x320 1 [⟨S400000x128, b0⟩, ⟨S400000x32, b1⟩, ⟨S400000x128, b2⟩, ⟨S400000x32, b3⟩]
        concatenates_S400000x128_S400000x32_S400000x128_S400000x32_S400000x320_d1 := by
  subst e0 e1 e2 e3; rfl

/-- One buffer's contents after a line of host operations, an operation at a time: at its own result an operation
    leaves its function of its operands' contents, at any other buffer what was there. -/
macro "results_on" : tactic =>
  `(tactic| (repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide))))

set_option maxHeartbeats 1000000 in
/-- The feature array the grid finds is the join of the arguments' pieces: the 18 operations before the join make the
    two gathered pieces, the join reads the two path arrays as launched, and nothing after it writes the result. -/
theorem V_v14 (c : Dev nD) : V m c main_v14
    = joined (m ((c : Thread nD τ).loc main_arg0)) (m ((c : Thread nD τ).loc main_arg1))
        (m ((c : Thread nD τ).loc main_arg2)) (m ((c : Thread nD τ).loc main_arg3)) (m ((c : Thread nD τ).loc main_arg4)) := by
  dsimp only [V, hostOps0]
  simp (disch := decide) only [after_cons, after_nil, nullary_result', unary_result', binary_result', ternary_result',
    reshape_result', nary_result', nullary_result_ne', unary_result_ne', binary_result_ne', ternary_result_ne',
    reshape_result_ne', nary_result_ne', Matrix.cons_val]
  unfold joined
  refine joined_congr _ _ _ _ _ _ _ _ ?_ ?_ ?_ ?_
  · results_on; all_goals rfl
  · results_on; all_goals rfl
  · results_on; all_goals rfl
  · results_on; all_goals rfl

/-- The first layer's weights as the grid finds them: the argument, transposed. -/
theorem V_v15 (c : Dev nD) : V m c main_v15
    = transpose S320x160 [1, 0] (m ((c : Thread nD τ).loc main_arg5)) transposes_S160x320_S320x160_1_0 := by
  dsimp only [V, hostOps0]; after_results; all_goals rfl
/-- The second layer's. -/
theorem V_v16 (c : Dev nD) : V m c main_v16
    = transpose S160x160 [1, 0] (m ((c : Thread nD τ).loc main_arg6)) transposes_S160x160_S160x160_1_0 := by
  dsimp only [V, hostOps0]; after_results; all_goals rfl
/-- The residual transform's. -/
theorem V_v17 (c : Dev nD) : V m c main_v17
    = transpose S320x160 [1, 0] (m ((c : Thread nD τ).loc main_arg7)) transposes_S160x320_S320x160_1_0 := by
  dsimp only [V, hostOps0]; after_results; all_goals rfl
/-- The head's weights: a row made a column. -/
theorem V_v18 (c : Dev nD) : V m c main_v18
    = transpose S160x1 [1, 0] (m ((c : Thread nD τ).loc main_arg12)) transposes_S1x160_S160x1_1_0 := by
  dsimp only [V, hostOps0]; after_results; all_goals rfl
/-- The four affine vectors, each with a unit row axis added. -/
theorem V_v19 (c : Dev nD) : V m c main_v19 = shapeCast S1x160 (m ((c : Thread nD τ).loc main_arg8)) shapeCasts_S160_S1x160 := by
  dsimp only [V, hostOps0]; after_results; all_goals rfl
theorem V_v20 (c : Dev nD) : V m c main_v20 = shapeCast S1x160 (m ((c : Thread nD τ).loc main_arg9)) shapeCasts_S160_S1x160 := by
  dsimp only [V, hostOps0]; after_results; all_goals rfl
theorem V_v21 (c : Dev nD) : V m c main_v21 = shapeCast S1x160 (m ((c : Thread nD τ).loc main_arg10)) shapeCasts_S160_S1x160 := by
  dsimp only [V, hostOps0]; after_results; all_goals rfl
theorem V_v22 (c : Dev nD) : V m c main_v22 = shapeCast S1x160 (m ((c : Thread nD τ).loc main_arg11)) shapeCasts_S160_S1x160 := by
  dsimp only [V, hostOps0]; after_results; all_goals rfl
/-- The head's bias with a unit axis added. -/
theorem V_v23 (c : Dev nD) : V m c main_v23 = shapeCast S1x1 (m ((c : Thread nD τ).loc main_arg13)) shapeCasts_S1_S1x1 := by
  dsimp only [V, hostOps0]; after_results; all_goals rfl

/-! ## The index maps over the grid -/

/-- The joined features' and the result's block index is the point's number on the row axis; every other window
    stays at block (0, 0). Decided over the 200 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 200 := lt_of_lt_of_eq t.isLt N_0

/-! ## Each window's block, read off its array -/

/-- Row `p` of point `t`'s block of the joined features is row `2000·t + p` of the array. -/
theorem blk0 (c : Dev nD) (t : Fin cfg0.N) (p : Fin 2000) (k : Fin 320) :
    iblk m c 0 t (ix2 p k)
      = V m c main_v14 (ix2 (⟨2000 * t.val + p.val, by have := point_lt t; have := p.isLt; omega⟩ : Fin 400000) k) := by
  show V m c main_v14 (((cfg0.win 0).blk t).view.emb (ix2 p k)) = V m c main_v14 _
  refine congrArg (V m c main_v14) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_0.index t (0 : Fin 2) * 2000 + 1 * p.val = 2000 * t.val + p.val; omega
  | ⟨1, _⟩ => show win0_0.index t (1 : Fin 2) * 320 + 1 * k.val = k.val; omega

/-- Every weight window's block is its whole array, at every point. -/
theorem blk1 (c : Dev nD) (t : Fin cfg0.N) (y : S320x160.Idx) : iblk m c 1 t y = V m c main_v15 y := by
  show V m c main_v15 (((cfg0.win 1).blk t).view.emb y) = V m c main_v15 y
  refine congrArg (V m c main_v15) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_1.index t (0 : Fin 2) * 320 + 1 * (y 0).val = (y 0).val; omega
  | ⟨1, _⟩ => show win0_1.index t (1 : Fin 2) * 160 + 1 * (y 1).val = (y 1).val; omega
theorem blk2 (c : Dev nD) (t : Fin cfg0.N) (y : S160x160.Idx) : iblk m c 2 t y = V m c main_v16 y := by
  show V m c main_v16 (((cfg0.win 2).blk t).view.emb y) = V m c main_v16 y
  refine congrArg (V m c main_v16) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_2.index t (0 : Fin 2) * 160 + 1 * (y 0).val = (y 0).val; omega
  | ⟨1, _⟩ => show win0_2.index t (1 : Fin 2) * 160 + 1 * (y 1).val = (y 1).val; omega
theorem blk3 (c : Dev nD) (t : Fin cfg0.N) (y : S320x160.Idx) : iblk m c 3 t y = V m c main_v17 y := by
  show V m c main_v17 (((cfg0.win 3).blk t).view.emb y) = V m c main_v17 y
  refine congrArg (V m c main_v17) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_3.index t (0 : Fin 2) * 320 + 1 * (y 0).val = (y 0).val; omega
  | ⟨1, _⟩ => show win0_3.index t (1 : Fin 2) * 160 + 1 * (y 1).val = (y 1).val; omega
theorem blk4 (c : Dev nD) (t : Fin cfg0.N) (y : S1x160.Idx) : iblk m c 4 t y = V m c main_v19 y := by
  show V m c main_v19 (((cfg0.win 4).blk t).view.emb y) = V m c main_v19 y
  refine congrArg (V m c main_v19) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_4.index t (0 : Fin 2) * 1 + 1 * (y 0).val = (y 0).val; omega
  | ⟨1, _⟩ => show win0_4.index t (1 : Fin 2) * 160 + 1 * (y 1).val = (y 1).val; omega
theorem blk5 (c : Dev nD) (t : Fin cfg0.N) (y : S1x160.Idx) : iblk m c 5 t y = V m c main_v20 y := by
  show V m c main_v20 (((cfg0.win 5).blk t).view.emb y) = V m c main_v20 y
  refine congrArg (V m c main_v20) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_5.index t (0 : Fin 2) * 1 + 1 * (y 0).val = (y 0).val; omega
  | ⟨1, _⟩ => show win0_5.index t (1 : Fin 2) * 160 + 1 * (y 1).val = (y 1).val; omega
theorem blk6 (c : Dev nD) (t : Fin cfg0.N) (y : S1x160.Idx) : iblk m c 6 t y = V m c main_v21 y := by
  show V m c main_v21 (((cfg0.win 6).blk t).view.emb y) = V m c main_v21 y
  refine congrArg (V m c main_v21) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_6.index t (0 : Fin 2) * 1 + 1 * (y 0).val = (y 0).val; omega
  | ⟨1, _⟩ => show win0_6.index t (1 : Fin 2) * 160 + 1 * (y 1).val = (y 1).val; omega
theorem blk7 (c : Dev nD) (t : Fin cfg0.N) (y : S1x160.Idx) : iblk m c 7 t y = V m c main_v22 y := by
  show V m c main_v22 (((cfg0.win 7).blk t).view.emb y) = V m c main_v22 y
  refine congrArg (V m c main_v22) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_7.index t (0 : Fin 2) * 1 + 1 * (y 0).val = (y 0).val; omega
  | ⟨1, _⟩ => show win0_7.index t (1 : Fin 2) * 160 + 1 * (y 1).val = (y 1).val; omega
theorem blk8 (c : Dev nD) (t : Fin cfg0.N) (y : S160x1.Idx) : iblk m c 8 t y = V m c main_v18 y := by
  show V m c main_v18 (((cfg0.win 8).blk t).view.emb y) = V m c main_v18 y
  refine congrArg (V m c main_v18) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_8.index t (0 : Fin 2) * 160 + 1 * (y 0).val = (y 0).val; omega
  | ⟨1, _⟩ => show win0_8.index t (1 : Fin 2) * 1 + 1 * (y 1).val = (y 1).val; omega
theorem blk9 (c : Dev nD) (t : Fin cfg0.N) (y : S1x1.Idx) : iblk m c 9 t y = V m c main_v23 y := by
  show V m c main_v23 (((cfg0.win 9).blk t).view.emb y) = V m c main_v23 y
  refine congrArg (V m c main_v23) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## The weights the body loads, read at an index of the arguments -/

theorem w1_at (c : Dev nD) (t : Fin cfg0.N) (j : Fin 160) (k : Fin 320) :
    iblk m c 1 t (ix2 k j) = m ((c : Thread nD τ).loc main_arg5) (ix2 j k) := by
  rw [blk1, V_v15]
  exact transpose_apply [1, 0] _ transposes_S160x320_S320x160_1_0 (ix2 k j) (ix2 j k)
    (fun b => by match b with | ⟨0, _⟩ => rfl | ⟨1, _⟩ => rfl)
theorem w2_at (c : Dev nD) (t : Fin cfg0.N) (j : Fin 160) (k : Fin 160) :
    iblk m c 2 t (ix2 k j) = m ((c : Thread nD τ).loc main_arg6) (ix2 j k) := by
  rw [blk2, V_v16]
  exact transpose_apply [1, 0] _ transposes_S160x160_S160x160_1_0 (ix2 k j) (ix2 j k)
    (fun b => by match b with | ⟨0, _⟩ => rfl | ⟨1, _⟩ => rfl)
theorem wt_at (c : Dev nD) (t : Fin cfg0.N) (j : Fin 160) (k : Fin 320) :
    iblk m c 3 t (ix2 k j) = m ((c : Thread nD τ).loc main_arg7) (ix2 j k) := by
  rw [blk3, V_v17]
  exact transpose_apply [1, 0] _ transposes_S160x320_S320x160_1_0 (ix2 k j) (ix2 j k)
    (fun b => by match b with | ⟨0, _⟩ => rfl | ⟨1, _⟩ => rfl)
theorem wh_at (c : Dev nD) (t : Fin cfg0.N) (k : Fin 160) :
    iblk m c 8 t (ix2 k (0 : Fin 1)) = m ((c : Thread nD τ).loc main_arg12) (ix2 (0 : Fin 1) k) := by
  rw [blk8, V_v18]
  exact transpose_apply [1, 0] _ transposes_S1x160_S160x1_1_0 (ix2 k (0 : Fin 1)) (ix2 (0 : Fin 1) k)
    (fun b => by match b with | ⟨0, _⟩ => rfl | ⟨1, _⟩ => rfl)

/-- A vector with a unit row axis added, read in its one row. -/
theorem addRow_at (x : S160.Idx → EReal) (j : Fin 160) :
    shapeCast S1x160 x shapeCasts_S160_S1x160 (ix2 (0 : Fin 1) j) = x (ix1 j) :=
  (shapeCast_addUnit_apply (n := 1) ![160] x shapeCasts_S160_S1x160 (ix2 (0 : Fin 1) j)).trans
    (congrArg x (funext fun a => by match a with | ⟨0, _⟩ => rfl))

theorem g1w_at (c : Dev nD) (t : Fin cfg0.N) (j : Fin 160) :
    iblk m c 4 t (ix2 (0 : Fin 1) j) = m ((c : Thread nD τ).loc main_arg8) (ix1 j) := by
  rw [blk4, V_v19]; exact addRow_at _ j
theorem g1b_at (c : Dev nD) (t : Fin cfg0.N) (j : Fin 160) :
    iblk m c 5 t (ix2 (0 : Fin 1) j) = m ((c : Thread nD τ).loc main_arg9) (ix1 j) := by
  rw [blk5, V_v20]; exact addRow_at _ j
theorem g2w_at (c : Dev nD) (t : Fin cfg0.N) (j : Fin 160) :
    iblk m c 6 t (ix2 (0 : Fin 1) j) = m ((c : Thread nD τ).loc main_arg10) (ix1 j) := by
  rw [blk6, V_v21]; exact addRow_at _ j
theorem g2b_at (c : Dev nD) (t : Fin cfg0.N) (j : Fin 160) :
    iblk m c 7 t (ix2 (0 : Fin 1) j) = m ((c : Thread nD τ).loc main_arg11) (ix1 j) := by
  rw [blk7, V_v22]; exact addRow_at _ j
theorem bh_at (c : Dev nD) (t : Fin cfg0.N) :
    iblk m c 9 t (ix2 (0 : Fin 1) (0 : Fin 1)) = m ((c : Thread nD τ).loc main_arg13) (ix1 (0 : Fin 1)) := by
  rw [blk9, V_v23]
  exact (shapeCast_addUnit_apply (n := 1) ![1] _ shapeCasts_S1_S1x1 (ix2 (0 : Fin 1) (0 : Fin 1))).trans
    (congrArg _ (funext fun a => by match a with | ⟨0, _⟩ => rfl))

/-! ## The result, row by row -/

/-- The block and head applied to row `n` of a feature array `X`, with the weights read where the arguments hold
    them. -/
def rowG (X : (⟨2, ![400000, 320]⟩ : Shape).Idx → EReal) (x5 : (⟨2, ![160, 320]⟩ : Shape).Idx → EReal)
    (x6 : (⟨2, ![160, 160]⟩ : Shape).Idx → EReal) (x7 : (⟨2, ![160, 320]⟩ : Shape).Idx → EReal)
    (x8 x9 x10 x11 : (⟨1, ![160]⟩ : Shape).Idx → EReal) (x12 : (⟨2, ![1, 160]⟩ : Shape).Idx → EReal)
    (x13 : (⟨1, ![1]⟩ : Shape).Idx → EReal) (n : Fin 400000) : EReal :=
  rowOut (fun k : Fin 320 => X (ix2 n k)) (fun (j : Fin 160) (k : Fin 320) => x5 (ix2 j k))
    (fun (j : Fin 160) (k : Fin 160) => x6 (ix2 j k)) (fun (j : Fin 160) (k : Fin 320) => x7 (ix2 j k))
    (fun j : Fin 160 => x8 (ix1 j)) (fun j : Fin 160 => x9 (ix1 j)) (fun j : Fin 160 => x10 (ix1 j))
    (fun j : Fin 160 => x11 (ix1 j)) (fun k : Fin 160 => x12 (ix2 (0 : Fin 1) k)) (x13 (ix1 (0 : Fin 1)))

/-- The whole result array as a function of the arguments: entry `(n, 0)` is `rowG` at row `n`. -/
def G (c : Dev nD) : S400000x1.Idx → EReal := fun i =>
  rowG (joined (m ((c : Thread nD τ).loc main_arg0)) (m ((c : Thread nD τ).loc main_arg1)) (m ((c : Thread nD τ).loc main_arg2))
      (m ((c : Thread nD τ).loc main_arg3)) (m ((c : Thread nD τ).loc main_arg4)))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    ⟨(i 0).val, idx2_lt0 i⟩

theorem hz : (![0, 0] : Fin 2 → Nat) = fun _ => 0 := funext fun a => by fin_cases a <;> rfl

/-- Row `p` of what point `t` stores is the result function at row `2000·t + p`. -/
theorem stored_row (c : Dev nD) (t : Fin cfg0.N) (p : Fin 2000) :
    logits (iblk m c 0 t) (iblk m c 1 t) (iblk m c 2 t) (iblk m c 3 t) (iblk m c 4 t) (iblk m c 5 t)
        (iblk m c 6 t) (iblk m c 7 t) (iblk m c 8 t) (iblk m c 9 t) (ix2 p (0 : Fin 1))
      = G m c (ix2 (⟨2000 * t.val + p.val, by have := point_lt t; have := p.isLt; omega⟩ : Fin 400000) (0 : Fin 1)) := by
  unfold logits
  simp only [View.ld_unit_zero (S := S2000x320) hz, View.ld_unit_zero (S := S320x160) hz,
    View.ld_unit_zero (S := S160x160) hz, View.ld_unit_zero (S := S1x160) hz, View.ld_unit_zero (S := S160x1) hz,
    View.ld_unit_zero (S := S1x1) hz]
  refine (pay3_row (iblk m c 0 t) (iblk m c 1 t) (iblk m c 2 t) (iblk m c 3 t) (iblk m c 4 t) (iblk m c 5 t)
    (iblk m c 6 t) (iblk m c 7 t) (iblk m c 8 t) (iblk m c 9 t) p).trans ?_
  simp only [blk0 m c t, w1_at m c t, w2_at m c t, wt_at m c t, g1w_at m c t, g1b_at m c t, g2w_at m c t, g2b_at m c t,
    wh_at m c t, bh_at m c t, V_v14 m c]
  rfl

/-- WHAT POINT `t` WRITES BACK is block `t` of the result function. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold out0_10
  rw [View.canon_unit_zero hz]
  refine funext fun (y : S2000x1.Idx) => ?_
  obtain ⟨p, q, rfl⟩ : ∃ (p : Fin 2000) (q : Fin 1), y = ix2 p q := ⟨y 0, y 1, eq_ix2 y⟩
  obtain rfl : q = 0 := Subsingleton.elim _ _
  refine (stored_row m c t p).trans ?_
  show G m c _ = G m c (((cfg0.win 10).blk t).view.emb (ix2 p (0 : Fin 1)))
  refine congrArg (G m c) (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show 2000 * t.val + p.val = win0_10.index t (0 : Fin 2) * 2000 + 1 * p.val; omega
  | ⟨1, _⟩ => show 0 = win0_10.index t (1 : Fin 2) * 1 + 1 * 0; omega

/-! ## The blocks tile the result -/

theorem mem_blk (t : Fin cfg0.N) (i : S400000x1.Idx) :
    i ∈ ((cfg0.win 10).blk t).view.set ↔ ∀ a : Fin 2, win0_10.index t a * S2000x1.size a ≤ (i a).val
      ∧ (i a).val < win0_10.index t a * S2000x1.size a + S2000x1.size a := by
  show i ∈ ((View.whole main_v24).slice (win0_10.rect t)).set ↔ _
  rw [View.set_slice_whole, Rect.mem_set_unit]
  exact Iff.rfl

/-- Row `n` lies in the block of point `n / 2000`. -/
theorem cover (i : S400000x1.Idx) :
    ∃ t : Fin cfg0.N, (cfg0.win 10).flush t = true ∧ i ∈ ((cfg0.win 10).blk t).view.set := by
  have hi0 : (i 0).val < 400000 := (i 0).isLt
  have hi1 : (i 1).val < 1 := (i 1).isLt
  refine ⟨⟨(i 0).val / 2000, by rw [show cfg0.N = 200 from N_0]; omega⟩, flush0_10 _, ?_⟩
  rw [mem_blk]
  intro a
  obtain ⟨-, -, -, -, -, -, -, -, -, -, -, -, -, -, -, -, -, -, -, -, e0, e1⟩ :=
    idx_facts ⟨(i 0).val / 2000, by rw [show cfg0.N = 200 from N_0]; omega⟩
  match a with
  | ⟨0, _⟩ =>
    show win0_10.index _ (0 : Fin 2) * 2000 ≤ (i 0).val ∧ (i 0).val < win0_10.index _ (0 : Fin 2) * 2000 + 2000
    rw [e0]; dsimp only; omega
  | ⟨1, _⟩ =>
    show win0_10.index _ (1 : Fin 2) * 1 ≤ (i 1).val ∧ (i 1).val < win0_10.index _ (1 : Fin 2) * 1 + 1
    rw [e1]; omega

/-- THE RESULT ARRAY after the run is the result function of the arguments. -/
theorem final (c : Dev nD) : (dats m 0 c).arrAt 10 cfg0.N = G m c :=
  (dats m 0 c).arrAt_eq_of_cover 10 (G m c) (fun t _ => flushed_eq m c t) cover

end Cert.KernelIdeal.Val

end
-- ==== Proof.RefRead.lean ====
/-
  The reference as a function of its arguments: each of its host operations is one stage, a pure function of the
  stages before it, and its result is the last stage. The two modules named here state those stages and read each
  at an index; what they say of the reference is used one row at a time in the module that follows them.
-/
import proofs.«153513_j45535243272619_1_alg».proof.Proof.Gen.ReferenceIdeal.Run
import proofs.«153513_j45535243272619_1_alg».proof.Proof.Gen.ReferenceIdeal.Read
-- ==== Proof.RefRow.lean ====
/-
  The reference, one row at a time.

  The reference's result at row `n` is the head applied to the residual block of row `n` of the joined feature array
  `x = val_main_v14 …` (the paths' features, the gathered actors' rows and the two embeddings side by side): each
  `dot_general` contracts the channel axis of that row against a weight's rows, each host sum runs along that row from
  the zero word (which is the extended real 0), the mean divides by the word `160.0`, and the rest is elementwise or a
  broadcast along the row. So the result at `(n, 0)` is `RowSpec.rowOut` of row `n` of `x` and the weights as given.
-/
import proofs.«153513_j45535243272619_1_alg».proof.Proof.RefRead
import proofs.«153513_j45535243272619_1_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.RefRow

open Cert.ReferenceIdeal Cert.ReferenceIdeal.Gen Cert.ReferenceIdeal.Read Idealize.ShloMosaic Idealize.ShloMosaic.ValueIdx Cert.RowSpec

section
variable (x0 : (⟨S40000x128, .f32⟩ : BufTy).Contents (Elt Ideal)) (x1 : (⟨S400000x128, .f32⟩ : BufTy).Contents (Elt Ideal))
    (x2 : (⟨S40000x32, .f32⟩ : BufTy).Contents (Elt Ideal)) (x3 : (⟨S400000x32, .f32⟩ : BufTy).Contents (Elt Ideal))
    (x4 : (⟨S400000, .i32⟩ : BufTy).Contents (Elt Ideal)) (x5 : (⟨S160x320, .f32⟩ : BufTy).Contents (Elt Ideal))
    (x6 : (⟨S160x160, .f32⟩ : BufTy).Contents (Elt Ideal)) (x7 : (⟨S160x320, .f32⟩ : BufTy).Contents (Elt Ideal))
    (x8 x9 x10 x11 : (⟨S160, .f32⟩ : BufTy).Contents (Elt Ideal)) (x12 : (⟨S1x160, .f32⟩ : BufTy).Contents (Elt Ideal))
    (x13 : (⟨S1, .f32⟩ : BufTy).Contents (Elt Ideal)) (n : Fin 400000)

/-! ### Where each stage reads its operands

  At an index of row `n` every layout operation and every contraction of the reference reads its operands at an index
  of row `n` again, or at an index of a weight that does not depend on `n`. Each equation below identifies one of the
  composed index maps with the index built from its coordinates; both sides agree coordinate by coordinate. -/

theorem lidx15 (j : Fin 160) (k : Fin 320) : lidx_main_v15 (ix2 n j) k = ix2 n k :=
  funext fun a => Fin.ext (by match a with | ⟨0, _⟩ => rfl | ⟨1, _⟩ => rfl)
theorem ridx15 (j : Fin 160) (k : Fin 320) : ridx_main_v15 (ix2 n j) k = ix2 j k :=
  funext fun a => Fin.ext (by match a with | ⟨0, _⟩ => rfl | ⟨1, _⟩ => rfl)
theorem lidx41 (j : Fin 160) (k : Fin 160) : lidx_main_v41 (ix2 n j) k = ix2 n k :=
  funext fun a => Fin.ext (by match a with | ⟨0, _⟩ => rfl | ⟨1, _⟩ => rfl)
theorem ridx41 (j : Fin 160) (k : Fin 160) : ridx_main_v41 (ix2 n j) k = ix2 j k :=
  funext fun a => Fin.ext (by match a with | ⟨0, _⟩ => rfl | ⟨1, _⟩ => rfl)
theorem lidx66 (j : Fin 160) (k : Fin 320) : lidx_main_v66 (ix2 n j) k = ix2 n k :=
  funext fun a => Fin.ext (by match a with | ⟨0, _⟩ => rfl | ⟨1, _⟩ => rfl)
theorem ridx66 (j : Fin 160) (k : Fin 320) : ridx_main_v66 (ix2 n j) k = ix2 j k :=
  funext fun a => Fin.ext (by match a with | ⟨0, _⟩ => rfl | ⟨1, _⟩ => rfl)
theorem lidx69 (k : Fin 160) : lidx_main_v69 (ix2 n (0 : Fin 1)) k = ix2 n k :=
  funext fun a => Fin.ext (by match a with | ⟨0, _⟩ => rfl | ⟨1, _⟩ => rfl)
theorem ridx69 (k : Fin 160) : ridx_main_v69 (ix2 n (0 : Fin 1)) k = ix2 (0 : Fin 1) k :=
  funext fun a => Fin.ext (by match a with | ⟨0, _⟩ => rfl | ⟨1, _⟩ => rfl)
theorem idx16 (k : Fin 160) : idx_main_v16 (ix1 n) k = ix2 n k :=
  funext fun a => Fin.ext (by match a with | ⟨0, _⟩ => rfl | ⟨1, _⟩ => rfl)
theorem idx23 (k : Fin 160) : idx_main_v23 (ix1 n) k = ix2 n k :=
  funext fun a => Fin.ext (by match a with | ⟨0, _⟩ => rfl | ⟨1, _⟩ => rfl)
theorem idx42 (k : Fin 160) : idx_main_v42 (ix1 n) k = ix2 n k :=
  funext fun a => Fin.ext (by match a with | ⟨0, _⟩ => rfl | ⟨1, _⟩ => rfl)
theorem idx49 (k : Fin 160) : idx_main_v49 (ix1 n) k = ix2 n k :=
  funext fun a => Fin.ext (by match a with | ⟨0, _⟩ => rfl | ⟨1, _⟩ => rfl)
theorem idx17 : idx_main_v17 (ix2 n (0 : Fin 1)) = ix1 n :=
  funext fun a => Fin.ext (by match a with | ⟨0, _⟩ => rfl)
theorem idx24 : idx_main_v24 (ix2 n (0 : Fin 1)) = ix1 n :=
  funext fun a => Fin.ext (by match a with | ⟨0, _⟩ => rfl)
theorem idx43 : idx_main_v43 (ix2 n (0 : Fin 1)) = ix1 n :=
  funext fun a => Fin.ext (by match a with | ⟨0, _⟩ => rfl)
theorem idx50 : idx_main_v50 (ix2 n (0 : Fin 1)) = ix1 n :=
  funext fun a => Fin.ext (by match a with | ⟨0, _⟩ => rfl)
theorem idx20 (j : Fin 160) : idx_main_v20 (ix2 n j) = ix2 n (0 : Fin 1) :=
  funext fun a => Fin.ext (by match a with | ⟨0, _⟩ => rfl | ⟨1, _⟩ => rfl)
theorem idx27 (j : Fin 160) : idx_main_v27 (ix2 n j) = ix2 n (0 : Fin 1) :=
  funext fun a => Fin.ext (by match a with | ⟨0, _⟩ => rfl | ⟨1, _⟩ => rfl)
theorem idx32 (j : Fin 160) : idx_main_v32 (ix2 n j) = ix2 n (0 : Fin 1) :=
  funext fun a => Fin.ext (by match a with | ⟨0, _⟩ => rfl | ⟨1, _⟩ => rfl)
theorem idx46 (j : Fin 160) : idx_main_v46 (ix2 n j) = ix2 n (0 : Fin 1) :=
  funext fun a => Fin.ext (by match a with | ⟨0, _⟩ => rfl | ⟨1, _⟩ => rfl)
theorem idx53 (j : Fin 160) : idx_main_v53 (ix2 n j) = ix2 n (0 : Fin 1) :=
  funext fun a => Fin.ext (by match a with | ⟨0, _⟩ => rfl | ⟨1, _⟩ => rfl)
theorem idx58 (j : Fin 160) : idx_main_v58 (ix2 n j) = ix2 n (0 : Fin 1) :=
  funext fun a => Fin.ext (by match a with | ⟨0, _⟩ => rfl | ⟨1, _⟩ => rfl)
theorem idx34 (j : Fin 160) : idx_main_v34 (ix2 (0 : Fin 1) j) = ix1 j :=
  funext fun a => Fin.ext (by match a with | ⟨0, _⟩ => rfl)
theorem idx37 (j : Fin 160) : idx_main_v37 (ix2 (0 : Fin 1) j) = ix1 j :=
  funext fun a => Fin.ext (by match a with | ⟨0, _⟩ => rfl)
theorem idx60 (j : Fin 160) : idx_main_v60 (ix2 (0 : Fin 1) j) = ix1 j :=
  funext fun a => Fin.ext (by match a with | ⟨0, _⟩ => rfl)
theorem idx63 (j : Fin 160) : idx_main_v63 (ix2 (0 : Fin 1) j) = ix1 j :=
  funext fun a => Fin.ext (by match a with | ⟨0, _⟩ => rfl)
theorem idx35 (j : Fin 160) : idx_main_v35 (ix2 n j) = ix2 (0 : Fin 1) j :=
  funext fun a => Fin.ext (by match a with | ⟨0, _⟩ => rfl | ⟨1, _⟩ => rfl)
theorem idx38 (j : Fin 160) : idx_main_v38 (ix2 n j) = ix2 (0 : Fin 1) j :=
  funext fun a => Fin.ext (by match a with | ⟨0, _⟩ => rfl | ⟨1, _⟩ => rfl)
theorem idx61 (j : Fin 160) : idx_main_v61 (ix2 n j) = ix2 (0 : Fin 1) j :=
  funext fun a => Fin.ext (by match a with | ⟨0, _⟩ => rfl | ⟨1, _⟩ => rfl)
theorem idx64 (j : Fin 160) : idx_main_v64 (ix2 n j) = ix2 (0 : Fin 1) j :=
  funext fun a => Fin.ext (by match a with | ⟨0, _⟩ => rfl | ⟨1, _⟩ => rfl)
theorem idx70 : idx_main_v70 (ix2 (0 : Fin 1) (0 : Fin 1)) = ix1 (0 : Fin 1) :=
  funext fun a => Fin.ext (by match a with | ⟨0, _⟩ => rfl)
theorem idx71 : idx_main_v71 (ix2 n (0 : Fin 1)) = ix2 (0 : Fin 1) (0 : Fin 1) :=
  funext fun a => Fin.ext (by match a with | ⟨0, _⟩ => rfl | ⟨1, _⟩ => rfl)

/-! ### The stages along row `n` -/

local notation "Xn" => (fun k : Fin 320 => val_main_v14 (F := Ideal) x0 x1 x2 x3 x4 (ix2 n k))
local notation "W1" => (fun (j : Fin 160) (k : Fin 320) => x5 (ix2 j k))
local notation "W2" => (fun (j : Fin 160) (k : Fin 160) => x6 (ix2 j k))
local notation "Wt" => (fun (j : Fin 160) (k : Fin 320) => x7 (ix2 j k))
local notation "G1w" => (fun j : Fin 160 => x8 (ix1 j))
local notation "G1b" => (fun j : Fin 160 => x9 (ix1 j))
local notation "G2w" => (fun j : Fin 160 => x10 (ix1 j))
local notation "G2b" => (fun j : Fin 160 => x11 (ix1 j))

/-- The first contraction: channel `j` of row `n` is the row of `x` against row `j` of the first weight. -/
theorem v15_row (j : Fin 160) :
    val_main_v15 (F := Ideal) x0 x1 x2 x3 x4 x5 (ix2 n j) = lin Xn W1 j := by
  simp only [val_main_v15_apply, lidx15, ridx15, lin]

/-- The first normalisation: the row sum starts from the zero word, which is 0; the mean divides it by the word `160.0`;
    the deviations, their squares, the second mean plus ε, the inverse square root and the affine map are elementwise
    along the row, the row statistics and the per-channel scale and shift being broadcast to it. -/
theorem v39_row (j : Fin 160) :
    val_main_v39 (F := Ideal) x0 x1 x2 x3 x4 x5 x8 x9 (ix2 n j) = gnorm (lin Xn W1) G1w G1b j := by
  simp only [val_main_v39_apply, val_main_v38_apply, val_main_v37_apply, val_main_v36_apply, val_main_v35_apply,
    val_main_v34_apply, val_main_v33_apply, val_main_v32_apply, val_main_v31_apply, val_main_v30_apply,
    val_main_v29_apply, val_main_cst_6_apply, val_main_v28_apply, val_main_v27_apply, val_main_v26_apply,
    val_main_v25_apply, val_main_cst_5_apply, val_main_v24_apply, val_main_v23_apply, val_main_cst_4_apply,
    val_main_v22_apply, val_main_v21_apply, val_main_v20_apply, val_main_v19_apply, val_main_v18_apply,
    val_main_cst_3_apply, val_main_v17_apply, val_main_v16_apply, val_main_cst_apply,
    idx38, idx37, idx35, idx34, idx32, idx27, idx24, idx23, idx20, idx17, idx16, v15_row,
    Ideal.addf_def, Ideal.subf_def, Ideal.mulf_def, Ideal.hostDivf_def, Ideal.hostUnary_rsqrt_def, Ideal.ofBits_def,
    Ideal.ofBits_zero_f32, zero_add, gnorm, mean]

/-- The first activation: the larger of the normalised channel and the zero word. -/
theorem v40_row (j : Fin 160) :
    val_main_v40 (F := Ideal) x0 x1 x2 x3 x4 x5 x8 x9 (ix2 n j) = relu (gnorm (lin Xn W1) G1w G1b j) := by
  rw [val_main_v40_apply, val_main_call0_v0_apply, val_main_call0_cst_apply, v39_row]
  rfl

/-- The second contraction runs over the activated channels of row `n`. -/
theorem v41_row (j : Fin 160) :
    val_main_v41 (F := Ideal) x0 x1 x2 x3 x4 x5 x6 x8 x9 (ix2 n j)
      = lin (fun i : Fin 160 => relu (gnorm (lin Xn W1) G1w G1b i)) W2 j := by
  simp only [val_main_v41_apply, lidx41, ridx41, v40_row, lin]

/-- The second normalisation, stage by stage as the first. -/
theorem v65_row (j : Fin 160) :
    val_main_v65 (F := Ideal) x0 x1 x2 x3 x4 x5 x6 x8 x9 x10 x11 (ix2 n j)
      = gnorm (lin (fun i : Fin 160 => relu (gnorm (lin Xn W1) G1w G1b i)) W2) G2w G2b j := by
  simp only [val_main_v65_apply, val_main_v64_apply, val_main_v63_apply, val_main_v62_apply, val_main_v61_apply,
    val_main_v60_apply, val_main_v59_apply, val_main_v58_apply, val_main_v57_apply, val_main_v56_apply,
    val_main_v55_apply, val_main_cst_11_apply, val_main_v54_apply, val_main_v53_apply, val_main_v52_apply,
    val_main_v51_apply, val_main_cst_10_apply, val_main_v50_apply, val_main_v49_apply, val_main_cst_9_apply,
    val_main_v48_apply, val_main_v47_apply, val_main_v46_apply, val_main_v45_apply, val_main_v44_apply,
    val_main_cst_8_apply, val_main_v43_apply, val_main_v42_apply, val_main_cst_7_apply,
    idx64, idx63, idx61, idx60, idx58, idx53, idx50, idx49, idx46, idx43, idx42, v41_row,
    Ideal.addf_def, Ideal.subf_def, Ideal.mulf_def, Ideal.hostDivf_def, Ideal.hostUnary_rsqrt_def, Ideal.ofBits_def,
    Ideal.ofBits_zero_f32, zero_add, gnorm, mean]

/-- The skip path: the row of `x` against row `j` of the third weight. -/
theorem v66_row (j : Fin 160) :
    val_main_v66 (F := Ideal) x0 x1 x2 x3 x4 x7 (ix2 n j) = lin Xn Wt j := by
  simp only [val_main_v66_apply, lidx66, ridx66, lin]

/-- The block's output channel: the second normalisation plus the skip path, then the larger of that and the zero word. -/
theorem v68_row (j : Fin 160) :
    val_main_v68 (F := Ideal) x0 x1 x2 x3 x4 x5 x6 x7 x8 x9 x10 x11 (ix2 n j)
      = relu (gnorm (lin (fun i : Fin 160 => relu (gnorm (lin Xn W1) G1w G1b i)) W2) G2w G2b j + lin Xn Wt j) := by
  rw [val_main_v68_apply, val_main_call1_v0_apply, val_main_call1_cst_apply, val_main_v67_apply, v65_row, v66_row]
  rfl

end

/-- The reference's result at an index is `rowOut` of that row of the joined features and the weights. -/
theorem ref_row (x0 : (⟨S40000x128, .f32⟩ : BufTy).Contents (Elt Ideal)) (x1 : (⟨S400000x128, .f32⟩ : BufTy).Contents (Elt Ideal))
    (x2 : (⟨S40000x32, .f32⟩ : BufTy).Contents (Elt Ideal)) (x3 : (⟨S400000x32, .f32⟩ : BufTy).Contents (Elt Ideal))
    (x4 : (⟨S400000, .i32⟩ : BufTy).Contents (Elt Ideal)) (x5 : (⟨S160x320, .f32⟩ : BufTy).Contents (Elt Ideal))
    (x6 : (⟨S160x160, .f32⟩ : BufTy).Contents (Elt Ideal)) (x7 : (⟨S160x320, .f32⟩ : BufTy).Contents (Elt Ideal))
    (x8 x9 x10 x11 : (⟨S160, .f32⟩ : BufTy).Contents (Elt Ideal)) (x12 : (⟨S1x160, .f32⟩ : BufTy).Contents (Elt Ideal))
    (x13 : (⟨S1, .f32⟩ : BufTy).Contents (Elt Ideal)) (n : Fin 400000) :
    val_main_v72 (F := Ideal) x0 x1 x2 x3 x4 x5 x6 x7 x8 x9 x10 x11 x12 x13 (ix2 n (0 : Fin 1))
      = rowOut (fun k : Fin 320 => val_main_v14 (F := Ideal) x0 x1 x2 x3 x4 (ix2 n k))
          (fun (j : Fin 160) (k : Fin 320) => x5 (ix2 j k)) (fun (j : Fin 160) (k : Fin 160) => x6 (ix2 j k))
          (fun (j : Fin 160) (k : Fin 320) => x7 (ix2 j k))
          (fun j : Fin 160 => x8 (ix1 j)) (fun j : Fin 160 => x9 (ix1 j)) (fun j : Fin 160 => x10 (ix1 j))
          (fun j : Fin 160 => x11 (ix1 j)) (fun k : Fin 160 => x12 (ix2 (0 : Fin 1) k)) (x13 (ix1 (0 : Fin 1))) := by
  simp only [val_main_v72_apply, val_main_v71_apply, val_main_v70_apply, val_main_v69_apply, lidx69, ridx69, idx71, idx70,
    v68_row, Ideal.addf_def, rowOut]

end Cert.ReferenceIdeal.RefRow

end
-- ==== Proof.lean ====
/-
  The certificate: a residual block with a linear head over gathered, joined features, tiled over 200 row blocks,
  against the same block written with whole-array host operations.

  Both programs first build the same feature array `x` (each path's features and embedding beside its actor's row
  and embedding, the actor chosen by the path's index, a negative index counted from the table's end): the same
  operations in the same order, so one function `joined` of the five arguments. The kernel then runs, for each block of
  2000 rows, `x · w1ᵀ`, a group normalisation over the 160 channels, relu, `· w2ᵀ`, a second normalisation, the residual
  `+ x · wtᵀ`, relu and the head `· whᵀ + bh`, the weights transposed beforehand and its matrix products fed in bf16; the
  reference runs the same chain on all 400000 rows at once, contracting against the weights' rows directly. On the
  extended reals a change of float format is the identity, a matrix product is the plain sum of products whichever
  operand is stored transposed, and a row's sums do not depend on how the rows are tiled: every result row is
  `RowSpec.rowOut` of that row of `x` and the weights, in both programs (`Pay.pay3_row` and `Val.final` for the kernel,
  `RefRow.ref_row` for the reference). No law that needs finite inputs is used: the two sides are the same sums of
  the same products, so the precondition is never opened.

  The frames: each program's host operations are total functions and its grid (for the two kernel programs) runs
  every point to its end, loading and storing whole staging buffers only; the arguments are written by nothing.
  The idealization rewrote no operation, so `preserves` has nothing to state.
-/
import proofs.«153513_j45535243272619_1_alg».proof.Defs
import proofs.«153513_j45535243272619_1_alg».proof.Proof.Gen.Kernel
import proofs.«153513_j45535243272619_1_alg».proof.Proof.Gen.KernelIdeal
import proofs.«153513_j45535243272619_1_alg».proof.Proof.Gen.ReferenceIdeal
import proofs.«153513_j45535243272619_1_alg».proof.Proof.Gen.Pre_finite_inputs
import proofs.«153513_j45535243272619_1_alg».proof.Proof.KernelFrameRun
import proofs.«153513_j45535243272619_1_alg».proof.Proof.KernelIdealFrameRun
import proofs.«153513_j45535243272619_1_alg».proof.Proof.KernelIdealValue
import proofs.«153513_j45535243272619_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs build the feature array by the same operations: the kernel's `joined` is the reference's
    fourteenth stage, as functions of the five arguments. -/
theorem joined_eq_ref (x0 : (⟨Cert.KernelIdeal.S40000x128, .f32⟩ : BufTy).Contents (Elt Ideal))
    (x1 : (⟨Cert.KernelIdeal.S400000x128, .f32⟩ : BufTy).Contents (Elt Ideal))
    (x2 : (⟨Cert.KernelIdeal.S40000x32, .f32⟩ : BufTy).Contents (Elt Ideal))
    (x3 : (⟨Cert.KernelIdeal.S400000x32, .f32⟩ : BufTy).Contents (Elt Ideal))
    (x4 : (⟨Cert.KernelIdeal.S400000, .i32⟩ : BufTy).Contents (Elt Ideal)) :
    Cert.KernelIdeal.Val.joined (F := Ideal) x0 x1 x2 x3 x4 = Cert.ReferenceIdeal.Read.val_main_v14 (F := Ideal) x0 x1 x2 x3 x4 := rfl

theorem frame_kernel : Cert.frame_Kernel := fun m ρ _ => Cert.Kernel.Fr.frame (F := Bits) m ρ

theorem frame_kernelIdeal : Cert.frame_KernelIdeal := fun m ρ _ => Cert.KernelIdeal.Fr.frame (F := Ideal) m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `Val.G`: row `n` is `rowOut` of row `n` of the joined features and the
    weights. The kernel's array is that function by `Val.final`; the reference's last stage is it row by row
    (`ref_row`), the two feature arrays one function of arguments that agree. -/
theorem algebraic : Cert.algebraic_KernelIdeal_ReferenceIdeal := by
  intro m ρ m' ρ' _ hagree
  refine ⟨fun c => Cert.KernelIdeal.Val.G m c, ?_, ?_⟩
  · exact (θ_run Cert.KernelIdeal.defs _ _).mono
      (fun r h c => ⟨(h c).1.trans (Cert.KernelIdeal.Val.final m c), (h c).2⟩) (Cert.KernelIdeal.Fr.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v72_eq, h0, h1, h2, h3, h4, h5, h6, h7, h8, h9, h10, h11, h12, h13]
    funext i
    obtain ⟨n, q, rfl⟩ : ∃ (n : Fin 400000) (q : Fin 1), i = ix2 n q := ⟨i 0, i 1, eq_ix2 i⟩
    obtain rfl : q = 0 := Subsingleton.elim _ _
    rw [Cert.ReferenceIdeal.RefRow.ref_row, ← joined_eq_ref]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
